-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part4 {F : FTy → Type} [FloatOps F] (main_arg14 : FVec F S1024x1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  main_v73

def fn_part3 {F : FTy → Type} [FloatOps F] (main_arg11 : FVec F S1024x1024 .f32) (main_arg12 : FVec F S512x1024 .f32) (main_arg13 : FVec F S1024x1024 .f32) (main_arg14 : FVec F S1024x1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S512x1024 .f32 := Host.absf main_arg12
  let main_cst_22 : FVec F S_ .f32 := constant S_ .f32 0x7F800000#32
  let main_v60 : FVec F S512x1024 .f32 := broadcastInDim S512x1024 ![] bcast_S_S512x1024 main_cst_22
  let main_v61 : IVec S512x1024 1 := cmpf .olt main_v59 main_v60
  let main_c_23 : IVec S_ 1 := constantI S_ 1 1#1
  let main_v62 : IVec S_ 1 := (fun x v => Host.reduce IntOp.andi x v reducesTo_S512x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S1024x1024 .f32) (main_arg8 : FVec F S1024x1024 .f32) (main_arg9 : FVec F S512x1024 .f32) (main_arg10 : FVec F S1024x1024 .f32) (main_arg11 : FVec F S1024x1024 .f32) (main_arg12 : FVec F S512x1024 .f32) (main_arg13 : FVec F S1024x1024 .f32) (main_arg14 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S512x1024 .f32 := Host.absf main_arg9
  let main_cst_16 : FVec F S_ .f32 := constant S_ .f32 0x7F800000#32
  let main_v45 : FVec F S512x1024 .f32 := broadcastInDim S512x1024 ![] bcast_S_S512x1024 main_cst_16
  let main_v46 : IVec S512x1024 1 := cmpf .olt main_v44 main_v45
  let main_c_17 : IVec S_ 1 := constantI S_ 1 1#1
  let main_v47 : IVec S_ 1 := (fun x v => Host.reduce IntOp.andi x v reducesTo_S512x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_v48 main_v49 main_v50

def fn_part1 {F : FTy → Type} [FloatOps F] (main_arg4 : FVec F S1024x1024 .f32) (main_arg5 : FVec F S1024x1024 .f32) (main_arg6 : FVec F S512x1024 .f32) (main_arg7 : FVec F S1024x1024 .f32) (main_arg8 : FVec F S1024x1024 .f32) (main_arg9 : FVec F S512x1024 .f32) (main_arg10 : FVec F S1024x1024 .f32) (main_arg11 : FVec F S1024x1024 .f32) (main_arg12 : FVec F S512x1024 .f32) (main_arg13 : FVec F S1024x1024 .f32) (main_arg14 : FVec F S1024x1024 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x512 .f32) (main_arg1 : FVec F S4096x2048 .f32) (main_arg2 : FVec F S4096x2048 .f32) (main_arg3 : FVec F S512x1024 .f32) (main_arg4 : FVec F S1024x1024 .f32) (main_arg5 : FVec F S1024x1024 .f32) (main_arg6 : FVec F S512x1024 .f32) (main_arg7 : FVec F S1024x1024 .f32) (main_arg8 : FVec F S1024x1024 .f32) (main_arg9 : FVec F S512x1024 .f32) (main_arg10 : FVec F S1024x1024 .f32) (main_arg11 : FVec F S1024x1024 .f32) (main_arg12 : FVec F S512x1024 .f32) (main_arg13 : FVec F S1024x1024 .f32) (main_arg14 : FVec F S1024x1024 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S4096x1024 : Shape := ⟨2, ![4096, 1024]⟩
abbrev S512x4096 : Shape := ⟨2, ![512, 4096]⟩
abbrev S1024x4096 : Shape := ⟨2, ![1024, 4096]⟩
abbrev S2560x4096 : Shape := ⟨2, ![2560, 4096]⟩
abbrev S4096x2560 : Shape := ⟨2, ![4096, 2560]⟩
abbrev S512x640 : Shape := ⟨2, ![512, 640]⟩
abbrev S640x4096 : Shape := ⟨2, ![640, 4096]⟩
abbrev S512x2048 : Shape := ⟨2, ![512, 2048]⟩

abbrev nBuf : Space → Nat
  | .hbm => 27
  | .vmem => 11
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S4096x2048, .f32⟩
  | .hbm, ⟨3, _⟩ => ⟨S512x1024, .f32⟩
  | .hbm, ⟨4, _⟩ => ⟨S1024x1024, .f32⟩
  | .hbm, ⟨5, _⟩ => ⟨S1024x1024, .f32⟩
  | .hbm, ⟨6, _⟩ => ⟨S512x1024, .f32⟩
  | .hbm, ⟨7, _⟩ => ⟨S1024x1024, .f32⟩
  | .hbm, ⟨8, _⟩ => ⟨S1024x1024, .f32⟩
  | .hbm, ⟨9, _⟩ => ⟨S512x1024, .f32⟩
  | .hbm, ⟨10, _⟩ => ⟨S1024x1024, .f32⟩
  | .hbm, ⟨11, _⟩ => ⟨S1024x1024, .f32⟩
  | .hbm, ⟨12, _⟩ => ⟨S512x1024, .f32⟩
  | .hbm, ⟨13, _⟩ => ⟨S1024x1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S512x4096, .f32⟩
  | .hbm, ⟨19, _⟩ => ⟨S1024x4096, .f32⟩
  | .hbm, ⟨20, _⟩ => ⟨S1024x4096, .f32⟩
  | .hbm, ⟨21, _⟩ => ⟨S2560x4096, .f32⟩
  | .hbm, ⟨22, _⟩ => ⟨S2560x4096, .bf16⟩
  | .hbm, ⟨23, _⟩ => ⟨S4096x2560, .f32⟩
  | .hbm, ⟨24, _⟩ => ⟨S4096x2560, .bf16⟩
  | .hbm, ⟨25, _⟩ => ⟨S4096x1024, .f32⟩
  | .hbm, ⟨26, _⟩ => ⟨S4096x2048, .f32⟩
  | .local _ .vmem, ⟨0, _⟩ => ⟨S512x640, .bf16⟩
  | .local _ .vmem, ⟨1, _⟩ => ⟨S512x640, .bf16⟩
  | .local _ .vmem, ⟨2, _⟩ => ⟨S640x4096, .bf16⟩
  | .local _ .vmem, ⟨3, _⟩ => ⟨S640x4096, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x2048, .f32⟩
  | .local _ .vmem, ⟨9, _⟩ => ⟨S512x2048, .f32⟩
  | .local _ .vmem, ⟨10, _⟩ => ⟨S512x4096, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10_0 : Ref sig .tc := ⟨.hbm, 25, rfl⟩
abbrev main_v10_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S4096x2048_S4096x1024_0_0 : S4096x2048.Slices ![0, 0] S4096x1024
  slices_S4096x2048_S4096x1024_0_1024 : S4096x2048.Slices ![0, 1024] S4096x1024
  concatenates_S512x1024_S512x1024_S512x1024_S512x1024_S512x4096_d1 : Shape.Concatenates [S512x1024, S512x1024, S512x1024, S512x1024] S512x4096 1
  concatenates_S1024x1024_S1024x1024_S1024x1024_S1024x1024_S1024x4096_d1 : Shape.Concatenates [S1024x1024, S1024x1024, S1024x1024, S1024x1024] S1024x4096 1
  concatenates_S512x4096_S1024x4096_S1024x4096_S2560x4096_d0 : Shape.Concatenates [S512x4096, S1024x4096, S1024x4096] S2560x4096 0
  bitsLt_bf16_f32 : FTy.bits .bf16 < FTy.bits .f32
  concatenates_S4096x512_S4096x1024_S4096x1024_S4096x2560_d1 : Shape.Concatenates [S4096x512, S4096x1024, S4096x1024] S4096x2560 1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x640_S512x640_0_0 : ∀ a, (![0, 0] : Fin 2 → Nat) a + S512x640.size a ≤ S512x640.size a
  h_S512x640 : 0 < S512x640.numel
  shapeCasts_S512x640_S512x640 : S512x640.ShapeCasts S512x640
  inb_S640x4096_S640x4096_0_0 : ∀ a, (![0, 0] : Fin 2 → Nat) a + S640x4096.size a ≤ S640x4096.size a
  h_S640x4096 : 0 < S640x4096.numel
  shapeCasts_S640x4096_S640x4096 : S640x4096.ShapeCasts S640x4096
  slices_S512x4096_o0_0_S512x1024 : S512x4096.Slices ![0, 0] S512x1024
  slices_S512x4096_o0_1024_S512x1024 : S512x4096.Slices ![0, 1024] S512x1024
  slices_S512x4096_o0_2048_S512x1024 : S512x4096.Slices ![0, 2048] S512x1024
  slices_S512x4096_o0_3072_S512x1024 : S512x4096.Slices ![0, 3072] S512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  concatenates_S512x1024_S512x1024_S512x2048_d1 : Shape.Concatenates [S512x1024, S512x1024] S512x2048 1
  inb_S512x2048_S512x2048_0_0 : ∀ a, (![0, 0] : Fin 2 → Nat) a + S512x2048.size a ≤ S512x2048.size a
  h_S512x2048 : 0 < S512x2048.numel
  dot_S512x640_S640x4096_S512x4096_1_0_0_1_n_n_wf : DotDims.WF S512x640 S640x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x640.size a ≤ S4096x2560.size a
  hwx0_0 : ∀ i : grid0.Coords, EltTy.bits .bf16 = 32 ∨ (Rect.block (s := S4096x2560) S512x640.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x4096.size a ≤ S2560x4096.size a
  hwx0_1 : ∀ i : grid0.Coords, EltTy.bits .bf16 = 32 ∨ (Rect.block (s := S2560x4096) S640x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .f32 = 32 ∨ (Rect.block (s := S4096x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S4096x2048.size a
  hwx0_4 : ∀ i : grid0.Coords, EltTy.bits .f32 = 32 ∨ (Rect.block (s := S4096x2048) S512x2048.size (cc0_transform_4 i) (hinb0_4 i)).WholeWords (EltTy.packing .f32)

variable [Facts₀]

def dot_S512x640_S640x4096_S512x4096_1_0_0_1_n_n : DotDims S512x640 S640x4096 S512x4096 where
  lhsContracting := [1]
  rhsContracting := [0]
  lhsNonContracting := [0]
  rhsNonContracting := [1]
  lhsBatch := []
  rhsBatch := []
  wf := dot_S512x640_S640x4096_S512x4096_1_0_0_1_n_n_wf

abbrev win0_0 : Pipeline.Window sig grid0 :=
  Pipeline.Window.ofSpec (Memref.whole main_v9) S512x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S640x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S4096x1024 : Shape := ⟨2, ![4096, 1024]⟩
abbrev S512x4096 : Shape := ⟨2, ![512, 4096]⟩
abbrev S1024x4096 : Shape := ⟨2, ![1024, 4096]⟩
abbrev S4096x4096 : Shape := ⟨2, ![4096, 4096]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S4096x2048, .f32⟩
  | .hbm, ⟨3, _⟩ => ⟨S512x1024, .f32⟩
  | .hbm, ⟨4, _⟩ => ⟨S1024x1024, .f32⟩
  | .hbm, ⟨5, _⟩ => ⟨S1024x1024, .f32⟩
  | .hbm, ⟨6, _⟩ => ⟨S512x1024, .f32⟩
  | .hbm, ⟨7, _⟩ => ⟨S1024x1024, .f32⟩
  | .hbm, ⟨8, _⟩ => ⟨S1024x1024, .f32⟩
  | .hbm, ⟨9, _⟩ => ⟨S512x1024, .f32⟩
  | .hbm, ⟨10, _⟩ => ⟨S1024x1024, .f32⟩
  | .hbm, ⟨11, _⟩ => ⟨S1024x1024, .f32⟩
  | .hbm, ⟨12, _⟩ => ⟨S512x1024, .f32⟩
  | .hbm, ⟨13, _⟩ => ⟨S1024x1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S512x4096, .f32⟩
  | .hbm, ⟨19, _⟩ => ⟨S1024x4096, .f32⟩
  | .hbm, ⟨20, _⟩ => ⟨S1024x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x2048, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]

class Facts₀ : Prop where
  slices_S4096x2048_S4096x1024_0_0 : S4096x2048.Slices ![0, 0] S4096x1024
  slices_S4096x2048_S4096x1024_0_1024 : S4096x2048.Slices ![0, 1024] S4096x1024
  concatenates_S512x1024_S512x1024_S512x1024_S512x1024_S512x4096_d1 : Shape.Concatenates [S512x1024, S512x1024, S512x1024, S512x1024] S512x4096 1
  concatenates_S1024x1024_S1024x1024_S1024x1024_S1024x1024_S1024x4096_d1 : Shape.Concatenates [S1024x1024, S1024x1024, S1024x1024, S1024x1024] S1024x4096 1
  slices_S4096x4096_S4096x1024_0_0 : S4096x4096.Slices ![0, 0] S4096x1024
  bcast_S_S4096x1024 : S_.BroadcastsInDim S4096x1024 (![] : Fin 0 → Fin S4096x1024.rank)
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  concatenates_S4096x1024_S4096x1024_S4096x2048_d1 : Shape.Concatenates [S4096x1024, S4096x1024] S4096x2048 1
  dot_S4096x512_S512x4096_S4096x4096_1_0_0_1_n_n_wf : DotDims.WF S4096x512 S512x4096 S4096x4096 [1] [0] [0] [1] [] []
  dot_S4096x1024_S1024x4096_S4096x4096_1_0_0_1_n_n_wf : DotDims.WF S4096x1024 S1024x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.BitsFrame.Kit.lean ====
/-
  The fused LSTM kernel's program up to and around its one pipelined region, for either float instance.

  Before the region ten host operations build the operands: three column slices of the two state arrays, three
  four-piece joins of the weight matrices along their columns, the join of those three along the rows (the
  2560 × 4096 weight matrix) and the join of the input with the two hidden slices along the columns (the
  4096 × 2560 left operand), each of the two narrowed to bf16. None of them writes an argument array, so the
  region finds every argument as launched. Here: the buffers' contents at the region's entry, each window's block
  at a grid point, why the frame claim's post follows from the pipeline's post, the two conditions the body
  branches on in closed form over the 8 × 4 grid (the reduction coordinate is the point modulo 4), and at which
  points the two result windows are idle.
-/
import proofs.«153491_j23012434772050_1_alg».proof.Proof.Gen.Kernel.Launch
import proofs.«153491_j23012434772050_1_alg».proof.Proof.Gen.Kernel.Skeleton
import proofs.«153491_j23012434772050_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the ten host operations. -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the ten intermediate results is found as launched: each host operation writes
    only its own result. -/
theorem V_unwritten (c : Dev nD) (r : Ref sig .tc)
    (h : r ≠ main_v0 ∧ r ≠ main_v1 ∧ r ≠ main_v2 ∧ r ≠ main_v3 ∧ r ≠ main_v4 ∧ r ≠ main_v5 ∧ r ≠ main_v6 ∧ r ≠ main_v7
      ∧ r ≠ main_v8 ∧ r ≠ main_v9) :
    V m c r = m ((c : Thread nD τ).loc r) :=
  StableHlo.after_of_forall_not_mem (b := Proc.devRef .tc r) _ _ (List.forall_iff_forall_mem.mp (by
    simp only [hostOps0, List.Forall, StableHlo.unary_writes, StableHlo.nary_writes, Finset.mem_singleton]
    obtain ⟨h0, h1, h2, h3, h4, h5, h6, h7, h8, h9⟩ := h
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8, StableHlo.devRef_ne_of_ne h9⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left operand's window holds its block at every point, whether the point fetched it or not, for any proof
    data over the entry contents whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the weight window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for the previous cell state's window, fetched only when the row block changes. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the pipeline's -/

/-- No window stages an argument array, so each argument is among the buffers the region passes by, which end at
    their entry contents, and those are the launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (V_unwritten m c main_arg0 (by decide)),
      ((h c).2 main_arg1 (Pipeline.mem_restRefs_of main_arg1 (by decide) (by decide))).trans (V_unwritten m c main_arg1 (by decide)),
      ((h c).2 main_arg2 (Pipeline.mem_restRefs_of main_arg2 (by decide) (by decide))).trans (V_unwritten m c main_arg2 (by decide)),
      ((h c).2 main_arg3 (Pipeline.mem_restRefs_of main_arg3 (by decide) (by decide))).trans (V_unwritten m c main_arg3 (by decide)),
      ((h c).2 main_arg4 (Pipeline.mem_restRefs_of main_arg4 (by decide) (by decide))).trans (V_unwritten m c main_arg4 (by decide)),
      ((h c).2 main_arg5 (Pipeline.mem_restRefs_of main_arg5 (by decide) (by decide))).trans (V_unwritten m c main_arg5 (by decide)),
      ((h c).2 main_arg6 (Pipeline.mem_restRefs_of main_arg6 (by decide) (by decide))).trans (V_unwritten m c main_arg6 (by decide)),
      ((h c).2 main_arg7 (Pipeline.mem_restRefs_of main_arg7 (by decide) (by decide))).trans (V_unwritten m c main_arg7 (by decide)),
      ((h c).2 main_arg8 (Pipeline.mem_restRefs_of main_arg8 (by decide) (by decide))).trans (V_unwritten m c main_arg8 (by decide)),
      ((h c).2 main_arg9 (Pipeline.mem_restRefs_of main_arg9 (by decide) (by decide))).trans (V_unwritten m c main_arg9 (by decide)),
      ((h c).2 main_arg10 (Pipeline.mem_restRefs_of main_arg10 (by decide) (by decide))).trans (V_unwritten m c main_arg10 (by decide)),
      ((h c).2 main_arg11 (Pipeline.mem_restRefs_of main_arg11 (by decide) (by decide))).trans (V_unwritten m c main_arg11 (by decide)),
      ((h c).2 main_arg12 (Pipeline.mem_restRefs_of main_arg12 (by decide) (by decide))).trans (V_unwritten m c main_arg12 (by decide)),
      ((h c).2 main_arg13 (Pipeline.mem_restRefs_of main_arg13 (by decide) (by decide))).trans (V_unwritten m c main_arg13 (by decide)),
      ((h c).2 main_arg14 (Pipeline.mem_restRefs_of main_arg14 (by decide) (by decide))).trans (V_unwritten m c main_arg14 (by decide))⟩) h

/-! ## The body's two conditions over the grid -/

/-- The first reduction step: the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The last reduction step: the gates are applied and the results stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last reduction step the body stores nothing into the two result windows, and the pipeline does not write them back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last reduction step both are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The memrefs the body is called with -/

/-- One staging buffer of each result window, through which its contents are stated. -/
abbrev VO0_3 : View sig .tc .vmem S512x1024 .f32 := (Memref.whole cc0_stg3_0 : Memref sig .tc .vmem S512x1024 .f32).view
abbrev VO0_4 : View sig .tc .vmem S512x2048 .f32 := (Memref.whole cc0_stg4_0 : Memref sig .tc .vmem S512x2048 .f32).view
/-- Each window's current staging memref at point `t`, as the pipeline passes it, and its wholeness. -/
abbrev ms0_0 (t : Fin cfg0.N) : Memref sig .tc .vmem S512x640 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S640x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2048 .f32 := win0_4.stage (cfg0.slots t 4)
abbrev hs0_4 (t : Fin cfg0.N) : (ms0_4 t).IsWhole := hstage0_4 ((cfg0.slots t 4).cast nbuf0_4)
/-- The accumulator: a whole scoped buffer of the kernel's own, carried from one point to the next. -/
abbrev scM0_0 : Memref sig .tc .vmem S512x4096 .f32 := Memref.whole cc0_scratch0
abbrev VS0_0 : View sig .tc .vmem S512x4096 .f32 := scM0_0.view

/-- The region's standing invariant with the accumulator owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.BitsFrame.RunA.lean ====
/-
  The kernel body at a FIRST reduction step (the reduction coordinate is 0 and is not the last): it clears the
  accumulator, then adds to it the product of the point's left-operand block and weight block. The two result
  windows' buffers are not touched. The run is found by symbolic execution; the pieces the accumulator ends with
  are its witness.
-/
import proofs.«153491_j23012434772050_1_alg».proof.Proof.BitsFrame.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole staging memrefs holding the three input blocks, the result buffers at any contents (handed back as
    they were) and the accumulator at anything, the body runs to the continuation with the accumulator's pieces
    written. -/
noncomputable def kernelRun0_A (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : cond0_0 i) (hc1 : ¬cond0_1 i)
    (x0 : Vec F S512x640 .bf16) (x1 : Vec F S640x4096 .bf16) (x2 : Vec F S512x1024 .f32) :
    Σ' (L3 : List (View.Piece (Elt F) S512x1024 .f32)) (L4 : List (View.Piece (Elt F) S512x2048 .f32)), { LS0 : List (View.Piece (Elt F) S512x4096 .f32) //
      ∀ (xi3 : Vec F S512x1024 .f32) (xi4 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7) K } := by
  refine ⟨[], [], ?_, fun xi3 xi4 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.BitsFrame.RunB.lean ====
/-
  The kernel body at a MIDDLE reduction step (neither the first nor the last): it adds to the accumulator, which
  holds what the point before left, the product of the point's left-operand block and weight block. The two result
  windows' buffers are not touched.
-/
import proofs.«153491_j23012434772050_1_alg».proof.Proof.BitsFrame.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- As at a first step, the accumulator now entering at the named contents `xs0`. -/
noncomputable def kernelRun0_B (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : ¬cond0_0 i) (hc1 : ¬cond0_1 i)
    (x0 : Vec F S512x640 .bf16) (x1 : Vec F S640x4096 .bf16) (x2 : Vec F S512x1024 .f32) (xs0 : Vec F S512x4096 .f32) :
    Σ' (L3 : List (View.Piece (Elt F) S512x1024 .f32)) (L4 : List (View.Piece (Elt F) S512x2048 .f32)), { LS0 : List (View.Piece (Elt F) S512x4096 .f32) //
      ∀ (xi3 : Vec F S512x1024 .f32) (xi4 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7) K } := by
  refine ⟨[], [], ?_, fun xi3 xi4 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.BitsFrame.RunC.lean ====
/-
  The kernel body at the LAST reduction step: it adds the point's product to the accumulator, reads the finished
  pre-activations back, applies the gates with the previous cell state's block and stores the hidden state into the
  first result window and the hidden and cell states side by side into the second. Both result buffers enter at any
  contents and leave with the pieces stored.
-/
import proofs.«153491_j23012434772050_1_alg».proof.Proof.BitsFrame.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The accumulator enters at the named contents `xs0`; the result buffers at anything. -/
noncomputable def kernelRun0_C (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : ¬cond0_0 i) (hc1 : cond0_1 i)
    (x0 : Vec F S512x640 .bf16) (x1 : Vec F S640x4096 .bf16) (x2 : Vec F S512x1024 .f32) (xs0 : Vec F S512x4096 .f32) :
    Σ' (L3 : List (View.Piece (Elt F) S512x1024 .f32)) (L4 : List (View.Piece (Elt F) S512x2048 .f32)), { LS0 : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7) K } := by
  refine ⟨?_, ?_, ?_, fun E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Fr

end
-- ==== Proof.BitsFrame.Frame.lean ====
/-
  The frame of the fused LSTM kernel's program, for either float instance: what the accumulator and the two result
  windows hold after each grid point, the pipeline's proof data, the body obligation at every point, and the run.

  The 32 grid points run through 8 row blocks of 4 reduction steps each. At a first step the accumulator is
  rebuilt from nothing; at every later step it is rebuilt from what the step before left; at the fourth step the
  two result blocks are stored as well and the pipeline writes them back. Between a row block's first and last
  step the result windows are idle: their buffers are handed back untouched and nothing is written back.
-/
import proofs.«153491_j23012434772050_1_alg».proof.Proof.BitsFrame.RunA
import proofs.«153491_j23012434772050_1_alg».proof.Proof.BitsFrame.RunB
import proofs.«153491_j23012434772050_1_alg».proof.Proof.BitsFrame.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of step leaves -/

/-- A first step stores nothing into the hidden-state window: a placeholder nothing consults. -/
def out0_A_3 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : cond0_0 i) (hc1 : ¬cond0_1 i) (x0 : Vec F S512x640 .bf16) (x1 : Vec F S640x4096 .bf16) (x2 : Vec F S512x1024 .f32) : Vec F S512x1024 .f32 :=
  VO0_3.read (Elt F) (VO0_3.writes (Elt F) VO0_3.junk (kernelRun0_A c i arg2 harg2 arg3 harg3 arg4 harg4 arg5 harg5 arg6 harg6 arg7 harg7 hc0 hc1 x0 x1 x2).1)
/-- Nor into the state window. -/
def out0_A_4 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : cond0_0 i) (hc1 : ¬cond0_1 i) (x0 : Vec F S512x640 .bf16) (x1 : Vec F S640x4096 .bf16) (x2 : Vec F S512x1024 .f32) : Vec F S512x2048 .f32 :=
  VO0_4.read (Elt F) (VO0_4.writes (Elt F) VO0_4.junk (kernelRun0_A c i arg2 harg2 arg3 harg3 arg4 harg4 arg5 harg5 arg6 harg6 arg7 harg7 hc0 hc1 x0 x1 x2).2.1)
/-- A first step's stores into the accumulator cover it. -/
theorem scover0_A_0 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : cond0_0 i) (hc1 : ¬cond0_1 i) (x0 : Vec F S512x640 .bf16) (x1 : Vec F S640x4096 .bf16) (x2 : Vec F S512x1024 .f32) (y : S512x4096.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S512x4096.size (by sl_kernel_rfl) y
/-- What a first step leaves in the accumulator. -/
def sout0_A_0 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : cond0_0 i) (hc1 : ¬cond0_1 i) (x0 : Vec F S512x640 .bf16) (x1 : Vec F S640x4096 .bf16) (x2 : Vec F S512x1024 .f32) : Vec F S512x4096 .f32 :=
  VS0_0.read (Elt F) (VS0_0.writes (Elt F) VS0_0.junk (kernelRun0_A c i arg2 harg2 arg3 harg3 arg4 harg4 arg5 harg5 arg6 harg6 arg7 harg7 hc0 hc1 x0 x1 x2).2.2.1)

/-- A middle step stores nothing into the result windows either. -/
def out0_B_3 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : ¬cond0_0 i) (hc1 : ¬cond0_1 i) (x0 : Vec F S512x640 .bf16) (x1 : Vec F S640x4096 .bf16) (x2 : Vec F S512x1024 .f32) (xs0 : Vec F S512x4096 .f32) : Vec F S512x1024 .f32 :=
  VO0_3.read (Elt F) (VO0_3.writes (Elt F) VO0_3.junk (kernelRun0_B c i arg2 harg2 arg3 harg3 arg4 harg4 arg5 harg5 arg6 harg6 arg7 harg7 hc0 hc1 x0 x1 x2 xs0).1)
def out0_B_4 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : ¬cond0_0 i) (hc1 : ¬cond0_1 i) (x0 : Vec F S512x640 .bf16) (x1 : Vec F S640x4096 .bf16) (x2 : Vec F S512x1024 .f32) (xs0 : Vec F S512x4096 .f32) : Vec F S512x2048 .f32 :=
  VO0_4.read (Elt F) (VO0_4.writes (Elt F) VO0_4.junk (kernelRun0_B c i arg2 harg2 arg3 harg3 arg4 harg4 arg5 harg5 arg6 harg6 arg7 harg7 hc0 hc1 x0 x1 x2 xs0).2.1)
theorem scover0_B_0 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : ¬cond0_0 i) (hc1 : ¬cond0_1 i) (x0 : Vec F S512x640 .bf16) (x1 : Vec F S640x4096 .bf16) (x2 : Vec F S512x1024 .f32) (xs0 : Vec F S512x4096 .f32) (y : S512x4096.Idx) :
    ∃ pc ∈ (kernelRun0_B c i arg2 harg2 arg3 harg3 arg4 harg4 arg5 harg5 arg6 harg6 arg7 harg7 hc0 hc1 x0 x1 x2 xs0).2.2.1, y ∈ pc.1.set :=
  View.cover_of_tiledL (kernelRun0_B c i arg2 harg2 arg3 harg3 arg4 harg4 arg5 harg5 arg6 harg6 arg7 harg7 hc0 hc1 x0 x1 x2 xs0).2.2.1 S512x4096.size (by sl_kernel_rfl) y
/-- What a middle step leaves in the accumulator, over what the step before left (`xs0`). -/
def sout0_B_0 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : ¬cond0_0 i) (hc1 : ¬cond0_1 i) (x0 : Vec F S512x640 .bf16) (x1 : Vec F S640x4096 .bf16) (x2 : Vec F S512x1024 .f32) (xs0 : Vec F S512x4096 .f32) : Vec F S512x4096 .f32 :=
  VS0_0.read (Elt F) (VS0_0.writes (Elt F) VS0_0.junk (kernelRun0_B c i arg2 harg2 arg3 harg3 arg4 harg4 arg5 harg5 arg6 harg6 arg7 harg7 hc0 hc1 x0 x1 x2 xs0).2.2.1)

/-- The last step's store into the hidden-state window covers its block. -/
theorem cover0_C_3 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : ¬cond0_0 i) (hc1 : cond0_1 i) (x0 : Vec F S512x640 .bf16) (x1 : Vec F S640x4096 .bf16) (x2 : Vec F S512x1024 .f32) (xs0 : Vec F S512x4096 .f32) (y : S512x1024.Idx) :
    ∃ pc ∈ (kernelRun0_C c i arg2 harg2 arg3 harg3 arg4 harg4 arg5 harg5 arg6 harg6 arg7 harg7 hc0 hc1 x0 x1 x2 xs0).1, y ∈ pc.1.set :=
  View.cover_of_tiledL (kernelRun0_C c i arg2 harg2 arg3 harg3 arg4 harg4 arg5 harg5 arg6 harg6 arg7 harg7 hc0 hc1 x0 x1 x2 xs0).1 S512x1024.size (by sl_kernel_rfl) y
/-- What the last step leaves in the hidden-state window. -/
def out0_C_3 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : ¬cond0_0 i) (hc1 : cond0_1 i) (x0 : Vec F S512x640 .bf16) (x1 : Vec F S640x4096 .bf16) (x2 : Vec F S512x1024 .f32) (xs0 : Vec F S512x4096 .f32) : Vec F S512x1024 .f32 :=
  VO0_3.read (Elt F) (VO0_3.writes (Elt F) VO0_3.junk (kernelRun0_C c i arg2 harg2 arg3 harg3 arg4 harg4 arg5 harg5 arg6 harg6 arg7 harg7 hc0 hc1 x0 x1 x2 xs0).1)
/-- Its store into the state window covers that block. -/
theorem cover0_C_4 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : ¬cond0_0 i) (hc1 : cond0_1 i) (x0 : Vec F S512x640 .bf16) (x1 : Vec F S640x4096 .bf16) (x2 : Vec F S512x1024 .f32) (xs0 : Vec F S512x4096 .f32) (y : S512x2048.Idx) :
    ∃ pc ∈ (kernelRun0_C c i arg2 harg2 arg3 harg3 arg4 harg4 arg5 harg5 arg6 harg6 arg7 harg7 hc0 hc1 x0 x1 x2 xs0).2.1, y ∈ pc.1.set :=
  View.cover_of_tiledL (kernelRun0_C c i arg2 harg2 arg3 harg3 arg4 harg4 arg5 harg5 arg6 harg6 arg7 harg7 hc0 hc1 x0 x1 x2 xs0).2.1 S512x2048.size (by sl_kernel_rfl) y
/-- What the last step leaves in the state window. -/
def out0_C_4 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : ¬cond0_0 i) (hc1 : cond0_1 i) (x0 : Vec F S512x640 .bf16) (x1 : Vec F S640x4096 .bf16) (x2 : Vec F S512x1024 .f32) (xs0 : Vec F S512x4096 .f32) : Vec F S512x2048 .f32 :=
  VO0_4.read (Elt F) (VO0_4.writes (Elt F) VO0_4.junk (kernelRun0_C c i arg2 harg2 arg3 harg3 arg4 harg4 arg5 harg5 arg6 harg6 arg7 harg7 hc0 hc1 x0 x1 x2 xs0).2.1)
theorem scover0_C_0 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : ¬cond0_0 i) (hc1 : cond0_1 i) (x0 : Vec F S512x640 .bf16) (x1 : Vec F S640x4096 .bf16) (x2 : Vec F S512x1024 .f32) (xs0 : Vec F S512x4096 .f32) (y : S512x4096.Idx) :
    ∃ pc ∈ (kernelRun0_C c i arg2 harg2 arg3 harg3 arg4 harg4 arg5 harg5 arg6 harg6 arg7 harg7 hc0 hc1 x0 x1 x2 xs0).2.2.1, y ∈ pc.1.set :=
  View.cover_of_tiledL (kernelRun0_C c i arg2 harg2 arg3 harg3 arg4 harg4 arg5 harg5 arg6 harg6 arg7 harg7 hc0 hc1 x0 x1 x2 xs0).2.2.1 S512x4096.size (by sl_kernel_rfl) y
/-- What the last step leaves in the accumulator. -/
def sout0_C_0 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : ¬cond0_0 i) (hc1 : cond0_1 i) (x0 : Vec F S512x640 .bf16) (x1 : Vec F S640x4096 .bf16) (x2 : Vec F S512x1024 .f32) (xs0 : Vec F S512x4096 .f32) : Vec F S512x4096 .f32 :=
  VS0_0.read (Elt F) (VS0_0.writes (Elt F) VS0_0.junk (kernelRun0_C c i arg2 harg2 arg3 harg3 arg4 harg4 arg5 harg5 arg6 harg6 arg7 harg7 hc0 hc1 x0 x1 x2 xs0).2.2.1)

/-! ## Point by point -/

/-- What the two result windows' buffers and the accumulator hold after the body at position `n`: the kind of step
    the position's residue modulo 4 selects, run at the point's memrefs and input blocks, a later step over the
    accumulator the position before left. -/
def outsAt0 (c : Dev nD) : (n : ℕ) → n < cfg0.N → Vec F S512x1024 .f32 × Vec F S512x2048 .f32 × Vec F S512x4096 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 4 = 0 then
      if h1 : (n + 1) % 4 = 3 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2)

theorem outsAt0_A (c : Dev nD) (t : Fin cfg0.N) (h0 : t.val % 4 = 0) (h1 : ¬t.val % 4 = 3) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the standing one (the accumulator at
    anything); afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The arrays as the region finds them; after the body each input's buffer at its block and the results' at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' memrefs hold their blocks; the point's residue modulo 4 says which kind
    of step it is; the invariant hands the body the accumulator at what the point before left (at anything at the
    very first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t)).2.2.2 _ _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t)).2.2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4
  · by_cases h1 : t.val % 4 = 3
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t ((hcond0_1 t).mpr h1)], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_3 out0_C_4 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk m c 0 t) (iblk m c 1 t) (iblk m c 2 t) _).2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        iintro ⟨H0, H1, H2, ⟨%e3, H3⟩, ⟨%e4, H4⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) _).2.2.2 _ _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the standing one back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- From any memory with zero counters every weakly fair execution of the program terminates, each window's array
    ends at what the library computes from the proof data, and every other unscoped buffer at its entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (run_main m ρ)

end Cert.Kernel.Fr

end
-- ==== Proof.IdealFrame.Kit.lean ====
/-
  The fused LSTM kernel's program up to and around its one pipelined region, for either float instance.

  Before the region ten host operations build the operands: three column slices of the two state arrays, three
  four-piece joins of the weight matrices along their columns, the join of those three along the rows (the
  2560 × 4096 weight matrix) and the join of the input with the two hidden slices along the columns (the
  4096 × 2560 left operand), each of the two narrowed to bf16. None of them writes an argument array, so the
  region finds every argument as launched. Here: the buffers' contents at the region's entry, each window's block
  at a grid point, why the frame claim's post follows from the pipeline's post, the two conditions the body
  branches on in closed form over the 8 × 4 grid (the reduction coordinate is the point modulo 4), and at which
  points the two result windows are idle.
-/
import proofs.«153491_j23012434772050_1_alg».proof.Proof.Gen.KernelIdeal.Launch
import proofs.«153491_j23012434772050_1_alg».proof.Proof.Gen.KernelIdeal.Skeleton
import proofs.«153491_j23012434772050_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the ten host operations. -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the ten intermediate results is found as launched: each host operation writes
    only its own result. -/
theorem V_unwritten (c : Dev nD) (r : Ref sig .tc)
    (h : r ≠ main_v0 ∧ r ≠ main_v1 ∧ r ≠ main_v2 ∧ r ≠ main_v3 ∧ r ≠ main_v4 ∧ r ≠ main_v5 ∧ r ≠ main_v6 ∧ r ≠ main_v7
      ∧ r ≠ main_v8 ∧ r ≠ main_v9) :
    V m c r = m ((c : Thread nD τ).loc r) :=
  StableHlo.after_of_forall_not_mem (b := Proc.devRef .tc r) _ _ (List.forall_iff_forall_mem.mp (by
    simp only [hostOps0, List.Forall, StableHlo.unary_writes, StableHlo.nary_writes, Finset.mem_singleton]
    obtain ⟨h0, h1, h2, h3, h4, h5, h6, h7, h8, h9⟩ := h
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8, StableHlo.devRef_ne_of_ne h9⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left operand's window holds its block at every point, whether the point fetched it or not, for any proof
    data over the entry contents whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the weight window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for the previous cell state's window, fetched only when the row block changes. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the pipeline's -/

/-- No window stages an argument array, so each argument is among the buffers the region passes by, which end at
    their entry contents, and those are the launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (V_unwritten m c main_arg0 (by decide)),
      ((h c).2 main_arg1 (Pipeline.mem_restRefs_of main_arg1 (by decide) (by decide))).trans (V_unwritten m c main_arg1 (by decide)),
      ((h c).2 main_arg2 (Pipeline.mem_restRefs_of main_arg2 (by decide) (by decide))).trans (V_unwritten m c main_arg2 (by decide)),
      ((h c).2 main_arg3 (Pipeline.mem_restRefs_of main_arg3 (by decide) (by decide))).trans (V_unwritten m c main_arg3 (by decide)),
      ((h c).2 main_arg4 (Pipeline.mem_restRefs_of main_arg4 (by decide) (by decide))).trans (V_unwritten m c main_arg4 (by decide)),
      ((h c).2 main_arg5 (Pipeline.mem_restRefs_of main_arg5 (by decide) (by decide))).trans (V_unwritten m c main_arg5 (by decide)),
      ((h c).2 main_arg6 (Pipeline.mem_restRefs_of main_arg6 (by decide) (by decide))).trans (V_unwritten m c main_arg6 (by decide)),
      ((h c).2 main_arg7 (Pipeline.mem_restRefs_of main_arg7 (by decide) (by decide))).trans (V_unwritten m c main_arg7 (by decide)),
      ((h c).2 main_arg8 (Pipeline.mem_restRefs_of main_arg8 (by decide) (by decide))).trans (V_unwritten m c main_arg8 (by decide)),
      ((h c).2 main_arg9 (Pipeline.mem_restRefs_of main_arg9 (by decide) (by decide))).trans (V_unwritten m c main_arg9 (by decide)),
      ((h c).2 main_arg10 (Pipeline.mem_restRefs_of main_arg10 (by decide) (by decide))).trans (V_unwritten m c main_arg10 (by decide)),
      ((h c).2 main_arg11 (Pipeline.mem_restRefs_of main_arg11 (by decide) (by decide))).trans (V_unwritten m c main_arg11 (by decide)),
      ((h c).2 main_arg12 (Pipeline.mem_restRefs_of main_arg12 (by decide) (by decide))).trans (V_unwritten m c main_arg12 (by decide)),
      ((h c).2 main_arg13 (Pipeline.mem_restRefs_of main_arg13 (by decide) (by decide))).trans (V_unwritten m c main_arg13 (by decide)),
      ((h c).2 main_arg14 (Pipeline.mem_restRefs_of main_arg14 (by decide) (by decide))).trans (V_unwritten m c main_arg14 (by decide))⟩) h

/-! ## The body's two conditions over the grid -/

/-- The first reduction step: the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The last reduction step: the gates are applied and the results stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last reduction step the body stores nothing into the two result windows, and the pipeline does not write them back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last reduction step both are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The memrefs the body is called with -/

/-- One staging buffer of each result window, through which its contents are stated. -/
abbrev VO0_3 : View sig .tc .vmem S512x1024 .f32 := (Memref.whole cc0_stg3_0 : Memref sig .tc .vmem S512x1024 .f32).view
abbrev VO0_4 : View sig .tc .vmem S512x2048 .f32 := (Memref.whole cc0_stg4_0 : Memref sig .tc .vmem S512x2048 .f32).view
/-- Each window's current staging memref at point `t`, as the pipeline passes it, and its wholeness. -/
abbrev ms0_0 (t : Fin cfg0.N) : Memref sig .tc .vmem S512x640 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S640x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2048 .f32 := win0_4.stage (cfg0.slots t 4)
abbrev hs0_4 (t : Fin cfg0.N) : (ms0_4 t).IsWhole := hstage0_4 ((cfg0.slots t 4).cast nbuf0_4)
/-- The accumulator: a whole scoped buffer of the kernel's own, carried from one point to the next. -/
abbrev scM0_0 : Memref sig .tc .vmem S512x4096 .f32 := Memref.whole cc0_scratch0
abbrev VS0_0 : View sig .tc .vmem S512x4096 .f32 := scM0_0.view

/-- The region's standing invariant with the accumulator owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.IdealFrame.RunA.lean ====
/-
  The kernel body at a FIRST reduction step (the reduction coordinate is 0 and is not the last): it clears the
  accumulator, then adds to it the product of the point's left-operand block and weight block. The two result
  windows' buffers are not touched. The run is found by symbolic execution; the pieces the accumulator ends with
  are its witness.
-/
import proofs.«153491_j23012434772050_1_alg».proof.Proof.IdealFrame.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole staging memrefs holding the three input blocks, the result buffers at any contents (handed back as
    they were) and the accumulator at anything, the body runs to the continuation with the accumulator's pieces
    written. -/
noncomputable def kernelRun0_A (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : cond0_0 i) (hc1 : ¬cond0_1 i)
    (x0 : Vec F S512x640 .bf16) (x1 : Vec F S640x4096 .bf16) (x2 : Vec F S512x1024 .f32) :
    Σ' (L3 : List (View.Piece (Elt F) S512x1024 .f32)) (L4 : List (View.Piece (Elt F) S512x2048 .f32)), { LS0 : List (View.Piece (Elt F) S512x4096 .f32) //
      ∀ (xi3 : Vec F S512x1024 .f32) (xi4 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7) K } := by
  refine ⟨[], [], ?_, fun xi3 xi4 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.IdealFrame.RunB.lean ====
/-
  The kernel body at a MIDDLE reduction step (neither the first nor the last): it adds to the accumulator, which
  holds what the point before left, the product of the point's left-operand block and weight block. The two result
  windows' buffers are not touched.
-/
import proofs.«153491_j23012434772050_1_alg».proof.Proof.IdealFrame.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- As at a first step, the accumulator now entering at the named contents `xs0`. -/
noncomputable def kernelRun0_B (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : ¬cond0_0 i) (hc1 : ¬cond0_1 i)
    (x0 : Vec F S512x640 .bf16) (x1 : Vec F S640x4096 .bf16) (x2 : Vec F S512x1024 .f32) (xs0 : Vec F S512x4096 .f32) :
    Σ' (L3 : List (View.Piece (Elt F) S512x1024 .f32)) (L4 : List (View.Piece (Elt F) S512x2048 .f32)), { LS0 : List (View.Piece (Elt F) S512x4096 .f32) //
      ∀ (xi3 : Vec F S512x1024 .f32) (xi4 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7) K } := by
  refine ⟨[], [], ?_, fun xi3 xi4 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.IdealFrame.RunC.lean ====
/-
  The kernel body at the LAST reduction step: it adds the point's product to the accumulator, reads the finished
  pre-activations back, applies the gates with the previous cell state's block and stores the hidden state into the
  first result window and the hidden and cell states side by side into the second. Both result buffers enter at any
  contents and leave with the pieces stored.
-/
import proofs.«153491_j23012434772050_1_alg».proof.Proof.IdealFrame.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The accumulator enters at the named contents `xs0`; the result buffers at anything. -/
noncomputable def kernelRun0_C (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : ¬cond0_0 i) (hc1 : cond0_1 i)
    (x0 : Vec F S512x640 .bf16) (x1 : Vec F S640x4096 .bf16) (x2 : Vec F S512x1024 .f32) (xs0 : Vec F S512x4096 .f32) :
    Σ' (L3 : List (View.Piece (Elt F) S512x1024 .f32)) (L4 : List (View.Piece (Elt F) S512x2048 .f32)), { LS0 : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7) K } := by
  refine ⟨?_, ?_, ?_, fun E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Fr

end
-- ==== Proof.IdealFrame.Frame.lean ====
/-
  The frame of the fused LSTM kernel's program, for either float instance: what the accumulator and the two result
  windows hold after each grid point, the pipeline's proof data, the body obligation at every point, and the run.

  The 32 grid points run through 8 row blocks of 4 reduction steps each. At a first step the accumulator is
  rebuilt from nothing; at every later step it is rebuilt from what the step before left; at the fourth step the
  two result blocks are stored as well and the pipeline writes them back. Between a row block's first and last
  step the result windows are idle: their buffers are handed back untouched and nothing is written back.
-/
import proofs.«153491_j23012434772050_1_alg».proof.Proof.IdealFrame.RunA
import proofs.«153491_j23012434772050_1_alg».proof.Proof.IdealFrame.RunB
import proofs.«153491_j23012434772050_1_alg».proof.Proof.IdealFrame.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of step leaves -/

/-- A first step stores nothing into the hidden-state window: a placeholder nothing consults. -/
def out0_A_3 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : cond0_0 i) (hc1 : ¬cond0_1 i) (x0 : Vec F S512x640 .bf16) (x1 : Vec F S640x4096 .bf16) (x2 : Vec F S512x1024 .f32) : Vec F S512x1024 .f32 :=
  VO0_3.read (Elt F) (VO0_3.writes (Elt F) VO0_3.junk (kernelRun0_A c i arg2 harg2 arg3 harg3 arg4 harg4 arg5 harg5 arg6 harg6 arg7 harg7 hc0 hc1 x0 x1 x2).1)
/-- Nor into the state window. -/
def out0_A_4 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : cond0_0 i) (hc1 : ¬cond0_1 i) (x0 : Vec F S512x640 .bf16) (x1 : Vec F S640x4096 .bf16) (x2 : Vec F S512x1024 .f32) : Vec F S512x2048 .f32 :=
  VO0_4.read (Elt F) (VO0_4.writes (Elt F) VO0_4.junk (kernelRun0_A c i arg2 harg2 arg3 harg3 arg4 harg4 arg5 harg5 arg6 harg6 arg7 harg7 hc0 hc1 x0 x1 x2).2.1)
/-- A first step's stores into the accumulator cover it. -/
theorem scover0_A_0 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : cond0_0 i) (hc1 : ¬cond0_1 i) (x0 : Vec F S512x640 .bf16) (x1 : Vec F S640x4096 .bf16) (x2 : Vec F S512x1024 .f32) (y : S512x4096.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S512x4096.size (by sl_kernel_rfl) y
/-- What a first step leaves in the accumulator. -/
def sout0_A_0 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : cond0_0 i) (hc1 : ¬cond0_1 i) (x0 : Vec F S512x640 .bf16) (x1 : Vec F S640x4096 .bf16) (x2 : Vec F S512x1024 .f32) : Vec F S512x4096 .f32 :=
  VS0_0.read (Elt F) (VS0_0.writes (Elt F) VS0_0.junk (kernelRun0_A c i arg2 harg2 arg3 harg3 arg4 harg4 arg5 harg5 arg6 harg6 arg7 harg7 hc0 hc1 x0 x1 x2).2.2.1)

/-- A middle step stores nothing into the result windows either. -/
def out0_B_3 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : ¬cond0_0 i) (hc1 : ¬cond0_1 i) (x0 : Vec F S512x640 .bf16) (x1 : Vec F S640x4096 .bf16) (x2 : Vec F S512x1024 .f32) (xs0 : Vec F S512x4096 .f32) : Vec F S512x1024 .f32 :=
  VO0_3.read (Elt F) (VO0_3.writes (Elt F) VO0_3.junk (kernelRun0_B c i arg2 harg2 arg3 harg3 arg4 harg4 arg5 harg5 arg6 harg6 arg7 harg7 hc0 hc1 x0 x1 x2 xs0).1)
def out0_B_4 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : ¬cond0_0 i) (hc1 : ¬cond0_1 i) (x0 : Vec F S512x640 .bf16) (x1 : Vec F S640x4096 .bf16) (x2 : Vec F S512x1024 .f32) (xs0 : Vec F S512x4096 .f32) : Vec F S512x2048 .f32 :=
  VO0_4.read (Elt F) (VO0_4.writes (Elt F) VO0_4.junk (kernelRun0_B c i arg2 harg2 arg3 harg3 arg4 harg4 arg5 harg5 arg6 harg6 arg7 harg7 hc0 hc1 x0 x1 x2 xs0).2.1)
theorem scover0_B_0 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : ¬cond0_0 i) (hc1 : ¬cond0_1 i) (x0 : Vec F S512x640 .bf16) (x1 : Vec F S640x4096 .bf16) (x2 : Vec F S512x1024 .f32) (xs0 : Vec F S512x4096 .f32) (y : S512x4096.Idx) :
    ∃ pc ∈ (kernelRun0_B c i arg2 harg2 arg3 harg3 arg4 harg4 arg5 harg5 arg6 harg6 arg7 harg7 hc0 hc1 x0 x1 x2 xs0).2.2.1, y ∈ pc.1.set :=
  View.cover_of_tiledL (kernelRun0_B c i arg2 harg2 arg3 harg3 arg4 harg4 arg5 harg5 arg6 harg6 arg7 harg7 hc0 hc1 x0 x1 x2 xs0).2.2.1 S512x4096.size (by sl_kernel_rfl) y
/-- What a middle step leaves in the accumulator, over what the step before left (`xs0`). -/
def sout0_B_0 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : ¬cond0_0 i) (hc1 : ¬cond0_1 i) (x0 : Vec F S512x640 .bf16) (x1 : Vec F S640x4096 .bf16) (x2 : Vec F S512x1024 .f32) (xs0 : Vec F S512x4096 .f32) : Vec F S512x4096 .f32 :=
  VS0_0.read (Elt F) (VS0_0.writes (Elt F) VS0_0.junk (kernelRun0_B c i arg2 harg2 arg3 harg3 arg4 harg4 arg5 harg5 arg6 harg6 arg7 harg7 hc0 hc1 x0 x1 x2 xs0).2.2.1)

/-- The last step's store into the hidden-state window covers its block. -/
theorem cover0_C_3 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : ¬cond0_0 i) (hc1 : cond0_1 i) (x0 : Vec F S512x640 .bf16) (x1 : Vec F S640x4096 .bf16) (x2 : Vec F S512x1024 .f32) (xs0 : Vec F S512x4096 .f32) (y : S512x1024.Idx) :
    ∃ pc ∈ (kernelRun0_C c i arg2 harg2 arg3 harg3 arg4 harg4 arg5 harg5 arg6 harg6 arg7 harg7 hc0 hc1 x0 x1 x2 xs0).1, y ∈ pc.1.set :=
  View.cover_of_tiledL (kernelRun0_C c i arg2 harg2 arg3 harg3 arg4 harg4 arg5 harg5 arg6 harg6 arg7 harg7 hc0 hc1 x0 x1 x2 xs0).1 S512x1024.size (by sl_kernel_rfl) y
/-- What the last step leaves in the hidden-state window. -/
def out0_C_3 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : ¬cond0_0 i) (hc1 : cond0_1 i) (x0 : Vec F S512x640 .bf16) (x1 : Vec F S640x4096 .bf16) (x2 : Vec F S512x1024 .f32) (xs0 : Vec F S512x4096 .f32) : Vec F S512x1024 .f32 :=
  VO0_3.read (Elt F) (VO0_3.writes (Elt F) VO0_3.junk (kernelRun0_C c i arg2 harg2 arg3 harg3 arg4 harg4 arg5 harg5 arg6 harg6 arg7 harg7 hc0 hc1 x0 x1 x2 xs0).1)
/-- Its store into the state window covers that block. -/
theorem cover0_C_4 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : ¬cond0_0 i) (hc1 : cond0_1 i) (x0 : Vec F S512x640 .bf16) (x1 : Vec F S640x4096 .bf16) (x2 : Vec F S512x1024 .f32) (xs0 : Vec F S512x4096 .f32) (y : S512x2048.Idx) :
    ∃ pc ∈ (kernelRun0_C c i arg2 harg2 arg3 harg3 arg4 harg4 arg5 harg5 arg6 harg6 arg7 harg7 hc0 hc1 x0 x1 x2 xs0).2.1, y ∈ pc.1.set :=
  View.cover_of_tiledL (kernelRun0_C c i arg2 harg2 arg3 harg3 arg4 harg4 arg5 harg5 arg6 harg6 arg7 harg7 hc0 hc1 x0 x1 x2 xs0).2.1 S512x2048.size (by sl_kernel_rfl) y
/-- What the last step leaves in the state window. -/
def out0_C_4 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : ¬cond0_0 i) (hc1 : cond0_1 i) (x0 : Vec F S512x640 .bf16) (x1 : Vec F S640x4096 .bf16) (x2 : Vec F S512x1024 .f32) (xs0 : Vec F S512x4096 .f32) : Vec F S512x2048 .f32 :=
  VO0_4.read (Elt F) (VO0_4.writes (Elt F) VO0_4.junk (kernelRun0_C c i arg2 harg2 arg3 harg3 arg4 harg4 arg5 harg5 arg6 harg6 arg7 harg7 hc0 hc1 x0 x1 x2 xs0).2.1)
theorem scover0_C_0 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : ¬cond0_0 i) (hc1 : cond0_1 i) (x0 : Vec F S512x640 .bf16) (x1 : Vec F S640x4096 .bf16) (x2 : Vec F S512x1024 .f32) (xs0 : Vec F S512x4096 .f32) (y : S512x4096.Idx) :
    ∃ pc ∈ (kernelRun0_C c i arg2 harg2 arg3 harg3 arg4 harg4 arg5 harg5 arg6 harg6 arg7 harg7 hc0 hc1 x0 x1 x2 xs0).2.2.1, y ∈ pc.1.set :=
  View.cover_of_tiledL (kernelRun0_C c i arg2 harg2 arg3 harg3 arg4 harg4 arg5 harg5 arg6 harg6 arg7 harg7 hc0 hc1 x0 x1 x2 xs0).2.2.1 S512x4096.size (by sl_kernel_rfl) y
/-- What the last step leaves in the accumulator. -/
def sout0_C_0 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : ¬cond0_0 i) (hc1 : cond0_1 i) (x0 : Vec F S512x640 .bf16) (x1 : Vec F S640x4096 .bf16) (x2 : Vec F S512x1024 .f32) (xs0 : Vec F S512x4096 .f32) : Vec F S512x4096 .f32 :=
  VS0_0.read (Elt F) (VS0_0.writes (Elt F) VS0_0.junk (kernelRun0_C c i arg2 harg2 arg3 harg3 arg4 harg4 arg5 harg5 arg6 harg6 arg7 harg7 hc0 hc1 x0 x1 x2 xs0).2.2.1)

/-! ## Point by point -/

/-- What the two result windows' buffers and the accumulator hold after the body at position `n`: the kind of step
    the position's residue modulo 4 selects, run at the point's memrefs and input blocks, a later step over the
    accumulator the position before left. -/
def outsAt0 (c : Dev nD) : (n : ℕ) → n < cfg0.N → Vec F S512x1024 .f32 × Vec F S512x2048 .f32 × Vec F S512x4096 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 4 = 0 then
      if h1 : (n + 1) % 4 = 3 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2)

theorem outsAt0_A (c : Dev nD) (t : Fin cfg0.N) (h0 : t.val % 4 = 0) (h1 : ¬t.val % 4 = 3) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the standing one (the accumulator at
    anything); afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The arrays as the region finds them; after the body each input's buffer at its block and the results' at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' memrefs hold their blocks; the point's residue modulo 4 says which kind
    of step it is; the invariant hands the body the accumulator at what the point before left (at anything at the
    very first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t)).2.2.2 _ _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t)).2.2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4
  · by_cases h1 : t.val % 4 = 3
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t ((hcond0_1 t).mpr h1)], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_3 out0_C_4 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk m c 0 t) (iblk m c 1 t) (iblk m c 2 t) _).2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        iintro ⟨H0, H1, H2, ⟨%e3, H3⟩, ⟨%e4, H4⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) _).2.2.2 _ _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the standing one back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- From any memory with zero counters every weakly fair execution of the program terminates, each window's array
    ends at what the library computes from the proof data, and every other unscoped buffer at its entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (run_main m ρ)

end Cert.KernelIdeal.Fr

end
-- ==== Proof.IdealValue.Pieces.lean ====
/-
  What each kind of reduction step leaves, as values: the accumulator after a first step is the zero block plus
  the point's product, after a later step what the step before left plus the point's product; the last step's two
  result blocks are the gate formulas of the finished accumulator and the previous cell state's block. Each is read
  off the pieces the body's run found: a covering store reads back as its payload.
-/
import proofs.«153491_j23012434772050_1_alg».proof.Proof.IdealFrame.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-block access. -/
theorem hz : (![0, 0] : Fin 2 → Nat) = fun _ => 0 := funext fun a => by fin_cases a <;> rfl

/-- A first step leaves the cleared accumulator plus the product of the point's blocks. -/
theorem sout_A (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : cond0_0 i) (hc1 : ¬cond0_1 i) (x0 : Vec F S512x640 .bf16) (x1 : Vec F S640x4096 .bf16) (x2 : Vec F S512x1024 .f32) :
    sout0_A_0 c i arg2 harg2 arg3 harg3 arg4 harg4 arg5 harg5 arg6 harg6 arg7 harg7 hc0 hc1 x0 x1 x2 = k0_pay2 (k0_pay1 (F := F)) x0 x1 := by
  -- two covering stores, the later on top: the zero block, then the update of the zero block read back
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S512x4096) hz, View.readCov_unit_zero (S := S512x4096) _ hz]
  simp only [View.readAt_eq_ld, harg2.read_unread, harg3.read_unread,
    View.ld_unit_zero (S := S512x640) hz, View.ld_unit_zero (S := S640x4096) hz]

/-- A middle step leaves what the step before left plus the product of the point's blocks. -/
theorem sout_B (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : ¬cond0_0 i) (hc1 : ¬cond0_1 i) (x0 : Vec F S512x640 .bf16) (x1 : Vec F S640x4096 .bf16) (x2 : Vec F S512x1024 .f32) (xs0 : Vec F S512x4096 .f32) :
    sout0_B_0 c i arg2 harg2 arg3 harg3 arg4 harg4 arg5 harg5 arg6 harg6 arg7 harg7 hc0 hc1 x0 x1 x2 xs0 = k0_pay2 xs0 x0 x1 := by
  -- one covering store, whose three loads read whole buffers
  unfold sout0_B_0
  rw [View.read_writes_eq_canon _ _ _ (scover0_B_0 c i arg2 harg2 arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg2.read_unread, harg3.read_unread, harg7.read_unread,
    View.ld_unit_zero (S := S512x4096) hz, View.ld_unit_zero (S := S512x640) hz, View.ld_unit_zero (S := S640x4096) hz]

/-- So does the last step. -/
theorem sout_C (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : ¬cond0_0 i) (hc1 : cond0_1 i) (x0 : Vec F S512x640 .bf16) (x1 : Vec F S640x4096 .bf16) (x2 : Vec F S512x1024 .f32) (xs0 : Vec F S512x4096 .f32) :
    sout0_C_0 c i arg2 harg2 arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg2 harg2 arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg2.read_unread, harg3.read_unread, harg7.read_unread,
    View.ld_unit_zero (S := S512x4096) hz, View.ld_unit_zero (S := S512x640) hz, View.ld_unit_zero (S := S640x4096) hz]

/-- The last step's hidden-state block: the gates applied to the finished accumulator. -/
theorem out_C_3 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : ¬cond0_0 i) (hc1 : cond0_1 i) (x0 : Vec F S512x640 .bf16) (x1 : Vec F S640x4096 .bf16) (x2 : Vec F S512x1024 .f32) (xs0 : Vec F S512x4096 .f32) :
    out0_C_3 c i arg2 harg2 arg3 harg3 arg4 harg4 arg5 harg5 arg6 harg6 arg7 harg7 hc0 hc1 x0 x1 x2 xs0 = k0_pay4 (k0_pay2 xs0 x0 x1) x2 := by
  -- one covering store; its first operand is the accumulator loaded back after the update's covering store
  unfold out0_C_3
  rw [View.read_writes_eq_canon _ _ _ (cover0_C_3 c i arg2 harg2 arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S512x4096) _ hz]
  simp only [View.readAt_eq_ld, harg2.read_unread, harg3.read_unread, harg4.read_unread, harg7.read_unread,
    View.ld_unit_zero (S := S512x4096) hz, View.ld_unit_zero (S := S512x640) hz, View.ld_unit_zero (S := S640x4096) hz,
    View.ld_unit_zero (S := S512x1024) hz]

/-- The last step's state block: hidden and cell states side by side. -/
theorem out_C_4 (c : Dev nD) (i : grid0.Coords) (arg2 : Memref sig .tc .vmem S512x640 .bf16) (harg2 : arg2.IsWhole) (arg3 : Memref sig .tc .vmem S640x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .f32) (harg6 : arg6.IsWhole) (arg7 : Memref sig .tc .vmem S512x4096 .f32) (harg7 : arg7.IsWhole) (hc0 : ¬cond0_0 i) (hc1 : cond0_1 i) (x0 : Vec F S512x640 .bf16) (x1 : Vec F S640x4096 .bf16) (x2 : Vec F S512x1024 .f32) (xs0 : Vec F S512x4096 .f32) :
    out0_C_4 c i arg2 harg2 arg3 harg3 arg4 harg4 arg5 harg5 arg6 harg6 arg7 harg7 hc0 hc1 x0 x1 x2 xs0 = k0_pay5 (k0_pay2 xs0 x0 x1) x2 := by
  unfold out0_C_4
  rw [View.read_writes_eq_canon _ _ _ (cover0_C_4 c i arg2 harg2 arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S512x4096) _ hz]
  simp only [View.readAt_eq_ld, harg2.read_unread, harg3.read_unread, harg4.read_unread, harg7.read_unread,
    View.ld_unit_zero (S := S512x4096) hz, View.ld_unit_zero (S := S512x640) hz, View.ld_unit_zero (S := S640x4096) hz,
    View.ld_unit_zero (S := S512x1024) hz]

end Cert.KernelIdeal.Fr

end
-- ==== Proof.Spec.lean ====
/-
  The LSTM cell both programs compute, as functions on the extended reals.

  For a batch row `b` and a gate column `n` (four gates of 1024 columns each, laid side by side), the
  pre-activation is the sum of three inner products: the input row against a column of `W`, the previous hidden
  row against a column of `U`, and the cross hidden row against a column of `V`. With `σ` the logistic function, the
  new cell state is `σ(forget) · c_prev + σ(input) · tanh(candidate)` and the new hidden state is
  `σ(output) · tanh(new cell)`; the second result lays the hidden state and the cell state side by side.
-/
import Idealize.ShloMosaic.PureOps.Ideal
import Idealize.ShloMosaic.Lib.ValueIdx

noncomputable section

namespace Cert.Spec

open Idealize.ShloMosaic Idealize.ShloMosaic.ValueIdx

/-- A matrix of extended reals over the literal two-axis index type. -/
abbrev Mat (a b : Nat) : Type := (⟨2, ![a, b]⟩ : Shape).Idx → EReal

/-- The pre-activation at batch row `b`, gate column `n`: three inner products added left to right. -/
def gate (x : Mat 4096 512) (hp hc : Mat 4096 1024) (W : Mat 512 4096) (U V : Mat 1024 4096) (b n : Fin 4096) : EReal :=
  (∑ k : Fin 512, x (ix2 b k) * W (ix2 k n) + ∑ k : Fin 1024, hp (ix2 b k) * U (ix2 k n))
    + ∑ k : Fin 1024, hc (ix2 b k) * V (ix2 k n)

/-- Column `j` of gate `q` (input 0, forget 1, output 2, candidate 3) among the 4096 gate columns. -/
def col (q : Nat) (hq : q < 4) (j : Fin 1024) : Fin 4096 := ⟨1024 * q + j.val, by have := j.isLt; omega⟩

/-- The new cell state. -/
def cellC (g : Fin 4096 → Fin 4096 → EReal) (cp : Mat 4096 1024) (b : Fin 4096) (j : Fin 1024) : EReal :=
  Ideal.logistic (g b (col 1 (by omega) j)) * cp (ix2 b j)
    + Ideal.logistic (g b (col 0 (by omega) j)) * Ideal.tanh (g b (col 3 (by omega) j))

/-- The new hidden state. -/
def cellH (g : Fin 4096 → Fin 4096 → EReal) (cp : Mat 4096 1024) (b : Fin 4096) (j : Fin 1024) : EReal :=
  Ideal.logistic (g b (col 2 (by omega) j)) * Ideal.tanh (cellC g cp b j)

/-- The first result: the hidden state. -/
def outH (g : Fin 4096 → Fin 4096 → EReal) (cp : Mat 4096 1024) : Mat 4096 1024 :=
  fun i => cellH g cp (i 0) (i 1)

/-- The second result: hidden state in columns 0 … 1023, cell state in columns 1024 … 2047. -/
def outS (g : Fin 4096 → Fin 4096 → EReal) (cp : Mat 4096 1024) : Mat 4096 2048 :=
  fun i => if h : (i 1).val < 1024 then cellH g cp (i 0) ⟨(i 1).val, h⟩
    else cellC g cp (i 0) ⟨(i 1).val - 1024, by have h2 : (i 1).val < 2048 := (i 1).isLt; show (i 1).val - 1024 < 1024; omega⟩

end Cert.Spec

end
-- ==== Proof.KSpec.lean ====
/-
  The kernel's way of computing the LSTM cell, as functions on the extended reals, and why it is the
  specification's.

  The kernel multiplies one 4096 × 2560 left operand (the input and the two hidden slices side by side) by one
  2560 × 4096 weight matrix (the three weight matrices stacked), 640 contraction indices at a time: the accumulator
  starts from zero and takes the four partial inner products in order. The gates are then applied row by row.
-/
import proofs.«153491_j23012434772050_1_alg».proof.Proof.Spec

noncomputable section

namespace Cert.Spec

open Idealize.ShloMosaic Idealize.ShloMosaic.ValueIdx

/-- Contraction index `j` of reduction block `kb`, among the 2560. -/
def kidx (kb : Fin 4) (j : Fin 640) : Fin 2560 := ⟨640 * kb.val + j.val, by have := kb.isLt; have := j.isLt; omega⟩

/-- Row `r` of row block `mi`, among the 4096 batch rows. -/
def ridx (mi : Fin 8) (r : Fin 512) : Fin 4096 := ⟨512 * mi.val + r.val, by have := mi.isLt; have := r.isLt; omega⟩

/-- The partial inner product of row `b` and column `n` over reduction block `kb`. -/
def blockDot (A : Mat 4096 2560) (Bm : Mat 2560 4096) (b n : Fin 4096) (kb : Fin 4) : EReal :=
  ∑ j : Fin 640, A (ix2 b (kidx kb j)) * Bm (ix2 (kidx kb j) n)

/-- The accumulator's entry for row `b`, column `n` after reduction step `kk`: zero plus the first partial
    product, then each later one added on the right. -/
def accUpTo (A : Mat 4096 2560) (Bm : Mat 2560 4096) (b n : Fin 4096) : (kk : ℕ) → kk < 4 → EReal
  | 0, h => 0 + blockDot A Bm b n ⟨0, h⟩
  | k + 1, h => accUpTo A Bm b n k (Nat.lt_of_succ_lt h) + blockDot A Bm b n ⟨k + 1, h⟩

/-- The finished pre-activation as the kernel computes it. -/
def kgate (A : Mat 4096 2560) (Bm : Mat 2560 4096) (b n : Fin 4096) : EReal := accUpTo A Bm b n 3 (by omega)

/-- The new cell state from one row's pre-activations `gr` and the previous cell state's entry `cpv`. -/
def rowC (gr : Fin 4096 → EReal) (cpv : EReal) (j : Fin 1024) : EReal :=
  Ideal.logistic (gr (col 1 (by omega) j)) * cpv
    + Ideal.logistic (gr (col 0 (by omega) j)) * Ideal.tanh (gr (col 3 (by omega) j))

/-- The new hidden state from the same. -/
def rowH (gr : Fin 4096 → EReal) (cpv : EReal) (j : Fin 1024) : EReal :=
  Ideal.logistic (gr (col 2 (by omega) j)) * Ideal.tanh (rowC gr cpv j)

theorem cellC_eq_rowC (g : Fin 4096 → Fin 4096 → EReal) (cp : Mat 4096 1024) (b : Fin 4096) (j : Fin 1024) :
    cellC g cp b j = rowC (g b) (cp (ix2 b j)) j := rfl

theorem cellH_eq_rowH (g : Fin 4096 → Fin 4096 → EReal) (cp : Mat 4096 1024) (b : Fin 4096) (j : Fin 1024) :
    cellH g cp b j = rowH (g b) (cp (ix2 b j)) j := rfl

end Cert.Spec

end
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.IdealValue.Payloads.lean ====
/-
  The kernel body's arithmetic read at an index, at the ideal instance: the cleared accumulator is zero everywhere;
  an accumulation step adds to each entry the inner product of a row of the left block with a column of the weight
  block; the gate formulas act entry by entry on the four 1024-column groups of the accumulator's row.
-/
import proofs.«153491_j23012434772050_1_alg».proof.Proof.Gen.KernelIdeal.Skeleton
import proofs.«153491_j23012434772050_1_alg».proof.Proof.KSpec
import proofs.«153491_j23012434772050_1_alg».proof.Proof.LibPlainDot
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx Cert.Spec

/-- The logistic function acts entry by entry. -/
theorem logistic_apply {s : Shape} {φ : FTy} (a : FVec Ideal s φ) (i : s.Idx) : logistic a i = Ideal.logistic (a i) := rfl

/-- The hyperbolic tangent acts entry by entry. -/
theorem tanh_apply {s : Shape} {φ : FTy} (a : FVec Ideal s φ) (i : s.Idx) : tanh a i = Ideal.tanh (a i) := rfl

/-- A block of 1024 columns cut out of the accumulator's row at column offset `o`: its entry (r, j) is the
    accumulator's entry (r, k) for the column `k = o + j`. -/
theorem slice_at (o : Nat) (v16 : FVec Ideal S512x4096 .f32) (h : S512x4096.Slices ![0, o] S512x1024)
    (r : Fin 512) (j : Fin 1024) (k : Fin 4096) (hk : k.val = o + j.val) :
    extractStridedSlice S512x1024 ![0, o] v16 h (ix2 r j) = v16 (ix2 r k) :=
  extractStridedSlice_apply _ _ h (ix2 r j) (ix2 r k)
    (fun a => match a with | ⟨0, _⟩ => (Nat.zero_add _).symm | ⟨1, _⟩ => hk)

/-- The block the reset stores is zero everywhere. -/
theorem pay1_apply (r : Fin 512) (n : Fin 4096) : (k0_pay1 (F := Ideal)) (ix2 r n) = 0 := by
  unfold k0_pay1
  rw [shapeCast_self]
  exact Ideal.ofBits_zero_f32

/-- An accumulation step at entry (r, n): the old entry plus the inner product over the block's 640 indices. -/
theorem pay2_apply (v3 : FVec Ideal S512x4096 .f32) (v4 : FVec Ideal S512x640 .bf16) (v6 : FVec Ideal S640x4096 .bf16)
    (r : Fin 512) (n : Fin 4096) :
    k0_pay2 (F := Ideal) v3 v4 v6 (ix2 r n) = v3 (ix2 r n) + ∑ j : Fin 640, v4 (ix2 r j) * v6 (ix2 j n) := by
  unfold k0_pay2
  rw [shapeCast_self, shapeCast_self, shapeCast_self, addf_apply]
  exact congrArg (v3 (ix2 r n) + ·) (PlainDot.matmul_zero_apply 512 640 4096 none v4 v6 (ix2 r n))

/-- The new cell state at entry (r, j). -/
theorem pay3_apply (v16 : FVec Ideal S512x4096 .f32) (v25 : FVec Ideal S512x1024 .f32) (r : Fin 512) (j : Fin 1024) :
    k0_pay3 (F := Ideal) v16 v25 (ix2 r j) = rowC (fun n => v16 (ix2 r n)) (v25 (ix2 r j)) j := by
  unfold k0_pay3
  rw [shapeCast_self, addf_apply, mulf_apply, mulf_apply, logistic_apply, logistic_apply, tanh_apply,
    slice_at 1024 v16 _ r j (col 1 (by omega) j) rfl, slice_at 0 v16 _ r j (col 0 (by omega) j) rfl,
    slice_at 3072 v16 _ r j (col 3 (by omega) j) rfl]
  rfl

/-- The new hidden state at entry (r, j). -/
theorem pay4_apply (v16 : FVec Ideal S512x4096 .f32) (v25 : FVec Ideal S512x1024 .f32) (r : Fin 512) (j : Fin 1024) :
    k0_pay4 (F := Ideal) v16 v25 (ix2 r j) = rowH (fun n => v16 (ix2 r n)) (v25 (ix2 r j)) j := by
  unfold k0_pay4
  rw [mulf_apply, logistic_apply, tanh_apply, slice_at 2048 v16 _ r j (col 2 (by omega) j) rfl, pay3_apply]
  rfl

/-- The state block at entry (r, q): the hidden state in the first 1024 columns, the cell state in the rest. -/
theorem pay5_apply (v16 : FVec Ideal S512x4096 .f32) (v25 : FVec Ideal S512x1024 .f32) (r : Fin 512) (q : Fin 2048) :
    k0_pay5 (F := Ideal) v16 v25 (ix2 r q)
      = if h : q.val < 1024 then rowH (fun n => v16 (ix2 r n)) (v25 (ix2 r ⟨q.val, h⟩)) ⟨q.val, h⟩
        else rowC (fun n => v16 (ix2 r n)) (v25 (ix2 r ⟨q.val - 1024, by have := q.isLt; omega⟩)) ⟨q.val - 1024, by have := q.isLt; omega⟩ := by
  unfold k0_pay5
  by_cases h : q.val < 1024
  · rw [dif_pos h, concatenate_pair_apply_left (t := S512x2048) (s₁ := S512x1024) (s₂ := S512x1024) 1 _ _ _ (ix2 r q) rfl
      (ix2 r ⟨q.val, h⟩) (fun a => match a with | ⟨0, _⟩ => rfl | ⟨1, _⟩ => rfl), pay4_apply]
  · rw [dif_neg h, concatenate_pair_apply_right (t := S512x2048) (s₁ := S512x1024) (s₂ := S512x1024) 1 _ _ _ (ix2 r q) rfl rfl
      (ix2 r ⟨q.val - 1024, by have := q.isLt; omega⟩)
      (fun a => match a with | ⟨0, _⟩ => fun _ => rfl | ⟨1, _⟩ => fun h' => absurd rfl h')
      (by show q.val - 1024 + 1024 = q.val; omega), pay3_apply]

end Cert.KernelIdeal.Pay

end
-- ==== Proof.IdealValue.Args.lean ====
/-
  The program's operands at the ideal instance, named: the input, the previous hidden state, the previous cell
  state and the cross hidden state as column slices of the two state arrays, and the three weight matrices each as
  the four gates' matrices laid side by side.
-/
import proofs.«153491_j23012434772050_1_alg».proof.Proof.IdealFrame.Kit
import proofs.«153491_j23012434772050_1_alg».proof.Proof.KSpec
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Spec

variable (m : (ℓ : Loc nD τ sig) → Buf (Elt Ideal) ℓ)

/-- The input. -/
abbrev xA (c : Dev nD) : FVec Ideal S4096x512 .f32 := m ((c : Thread nD τ).loc main_arg0)
/-- The previous hidden state: columns 0 … 1023 of the first state array. -/
abbrev hpA (c : Dev nD) : FVec Ideal S4096x1024 .f32 :=
  extractStridedSlice S4096x1024 ![0, 0] (m ((c : Thread nD τ).loc main_arg1)) slices_S4096x2048_S4096x1024_0_0
/-- The previous cell state: columns 1024 … 2047 of the first state array. -/
abbrev cpA (c : Dev nD) : FVec Ideal S4096x1024 .f32 :=
  extractStridedSlice S4096x1024 ![0, 1024] (m ((c : Thread nD τ).loc main_arg1)) slices_S4096x2048_S4096x1024_0_1024
/-- The cross hidden state: columns 0 … 1023 of the second state array. -/
abbrev hcA (c : Dev nD) : FVec Ideal S4096x1024 .f32 :=
  extractStridedSlice S4096x1024 ![0, 0] (m ((c : Thread nD τ).loc main_arg2)) slices_S4096x2048_S4096x1024_0_0
/-- The input weights of the four gates side by side. -/
abbrev WA (c : Dev nD) : FVec Ideal S512x4096 .f32 :=
  concatenate S512x4096 1 [⟨S512x1024, m ((c : Thread nD τ).loc main_arg3)⟩, ⟨S512x1024, m ((c : Thread nD τ).loc main_arg6)⟩, ⟨S512x1024, m ((c : Thread nD τ).loc main_arg9)⟩, ⟨S512x1024, m ((c : Thread nD τ).loc main_arg12)⟩]
    concatenates_S512x1024_S512x1024_S512x1024_S512x1024_S512x4096_d1
/-- The hidden weights of the four gates side by side. -/
abbrev UA (c : Dev nD) : FVec Ideal S1024x4096 .f32 :=
  concatenate S1024x4096 1 [⟨S1024x1024, m ((c : Thread nD τ).loc main_arg4)⟩, ⟨S1024x1024, m ((c : Thread nD τ).loc main_arg7)⟩, ⟨S1024x1024, m ((c : Thread nD τ).loc main_arg10)⟩, ⟨S1024x1024, m ((c : Thread nD τ).loc main_arg13)⟩]
    concatenates_S1024x1024_S1024x1024_S1024x1024_S1024x1024_S1024x4096_d1
/-- The cross weights of the four gates side by side. -/
abbrev VA (c : Dev nD) : FVec Ideal S1024x4096 .f32 :=
  concatenate S1024x4096 1 [⟨S1024x1024, m ((c : Thread nD τ).loc main_arg5)⟩, ⟨S1024x1024, m ((c : Thread nD τ).loc main_arg8)⟩, ⟨S1024x1024, m ((c : Thread nD τ).loc main_arg11)⟩, ⟨S1024x1024, m ((c : Thread nD τ).loc main_arg14)⟩]
    concatenates_S1024x1024_S1024x1024_S1024x1024_S1024x1024_S1024x4096_d1

/-- The kernel's left operand as the region finds it. -/
abbrev AA (c : Dev nD) : FVec Ideal S4096x2560 .bf16 := V m c main_v9
/-- The kernel's weight matrix as the region finds it. -/
abbrev BA (c : Dev nD) : FVec Ideal S2560x4096 .bf16 := V m c main_v7

end Cert.KernelIdeal.Fr

end
-- ==== Proof.IdealValue.Blocks.lean ====
/-
  Each input window's block at a grid point, read at an entry: point 4·mi + kk stages rows 512·mi … of the left
  operand at columns 640·kk …, rows 640·kk … of the weight matrix, and rows 512·mi … of the previous cell state. A
  block's entry sits at block index × block size + its coordinate inside the block.
-/
import proofs.«153491_j23012434772050_1_alg».proof.Proof.IdealValue.Args
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Spec

/-! ## The index maps over the grid

Point `t` of the 8 × 4 grid has row-block coordinate `t / 4` and reduction coordinate `t % 4`. The left operand's
window is indexed by both, the weight window by the reduction coordinate alone, the cell state's by the row block
alone. -/

theorem idx0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)

theorem idx1 : ∀ t : Fin cfg0.N, win0_1.index t 0 = t.val % 4 ∧ win0_1.index t 1 = 0 :=
  (by decide +kernel : ∀ t : Fin grid0.N, win0_1.index t 0 = t.val % 4 ∧ win0_1.index t 1 = 0)

theorem idx2 : ∀ t : Fin cfg0.N, win0_2.index t 0 = t.val / 4 ∧ win0_2.index t 1 = 0 :=
  (by decide +kernel : ∀ t : Fin grid0.N, win0_2.index t 0 = t.val / 4 ∧ win0_2.index t 1 = 0)

variable (m : (ℓ : Loc nD τ sig) → Buf (Elt Ideal) ℓ)

/-- The left operand's block. -/
theorem iblk0_apply (c : Dev nD) (t : Fin cfg0.N) (mi : Fin 8) (kk : Fin 4) (ht : t.val = 4 * mi.val + kk.val)
    (r : Fin 512) (j : Fin 640) :
    (iblk m c 0 t : Vec Ideal S512x640 .bf16) (ix2 r j) = AA m c (ix2 (ridx mi r) (kidx kk j)) := by
  have hi := idx0 t
  have hkk := kk.isLt
  unfold iblk
  rw [View.read_apply]
  show V m c main_v9 _ = V m c main_v9 _
  congr 1
  funext a
  apply Fin.ext
  match a with
  | ⟨0, _⟩ => show win0_0.index t 0 * 512 + 1 * r.val = 512 * mi.val + r.val; rw [hi.1]; omega
  | ⟨1, _⟩ => show win0_0.index t 1 * 640 + 1 * j.val = 640 * kk.val + j.val; rw [hi.2]; omega

/-- The weight matrix's block. -/
theorem iblk1_apply (c : Dev nD) (t : Fin cfg0.N) (mi : Fin 8) (kk : Fin 4) (ht : t.val = 4 * mi.val + kk.val)
    (j : Fin 640) (n : Fin 4096) :
    (iblk m c 1 t : Vec Ideal S640x4096 .bf16) (ix2 j n) = BA m c (ix2 (kidx kk j) n) := by
  have hi := idx1 t
  have hkk := kk.isLt
  unfold iblk
  rw [View.read_apply]
  show V m c main_v7 _ = V m c main_v7 _
  congr 1
  funext a
  apply Fin.ext
  match a with
  | ⟨0, _⟩ => show win0_1.index t 0 * 640 + 1 * j.val = 640 * kk.val + j.val; rw [hi.1]; omega
  | ⟨1, _⟩ => show win0_1.index t 1 * 4096 + 1 * n.val = n.val; rw [hi.2]; omega

/-- The previous cell state's block. -/
theorem iblk2_apply (c : Dev nD) (t : Fin cfg0.N) (mi : Fin 8) (kk : Fin 4) (ht : t.val = 4 * mi.val + kk.val)
    (r : Fin 512) (j : Fin 1024) :
    (iblk m c 2 t : Vec Ideal S512x1024 .f32) (ix2 r j) = (V m c main_v1 : FVec Ideal S4096x1024 .f32) (ix2 (ridx mi r) j) := by
  have hi := idx2 t
  have hkk := kk.isLt
  unfold iblk
  rw [View.read_apply]
  show V m c main_v1 _ = V m c main_v1 _
  congr 1
  funext a
  apply Fin.ext
  match a with
  | ⟨0, _⟩ => show win0_2.index t 0 * 512 + 1 * r.val = 512 * mi.val + r.val; rw [hi.1]; omega
  | ⟨1, _⟩ => show win0_2.index t 1 * 1024 + 1 * j.val = j.val; rw [hi.2]; omega

end Cert.KernelIdeal.Fr

end
-- ==== Proof.IdealValue.Acc.lean ====
/-
  The accumulator after each grid point, at the ideal instance: at point 4·mi + kk its entry for row r, column q is
  zero plus the first kk + 1 partial inner products of row 512·mi + r of the left operand with column q of the weight
  matrix, taken in order; and at a row block's last step the two result blocks are the gate formulas of that
  accumulator and the previous cell state's block.
-/
import proofs.«153491_j23012434772050_1_alg».proof.Proof.IdealValue.Pieces
import proofs.«153491_j23012434772050_1_alg».proof.Proof.IdealValue.Payloads
import proofs.«153491_j23012434772050_1_alg».proof.Proof.IdealValue.Blocks

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Spec

variable (m : (ℓ : Loc nD τ sig) → Buf (Elt Ideal) ℓ)

/-- The point's left-operand block, weight block and previous-cell-state block, at their literal types. -/
abbrev lblk (c : Dev nD) (t : Fin cfg0.N) : FVec Ideal S512x640 .bf16 := iblk m c 0 t
abbrev wblk (c : Dev nD) (t : Fin cfg0.N) : FVec Ideal S640x4096 .bf16 := iblk m c 1 t
abbrev cblk (c : Dev nD) (t : Fin cfg0.N) : FVec Ideal S512x1024 .f32 := iblk m c 2 t

/-- After a first reduction step: zero plus the point's partial products. -/
theorem acc_first (c : Dev nD) (t : Fin cfg0.N) (h0 : t.val % 4 = 0) (r : Fin 512) (q : Fin 4096) :
    ((outsAt0 m c t.val t.isLt).2.2 : Vec Ideal S512x4096 .f32) (ix2 r q)
      = 0 + ∑ j : Fin 640, lblk m c t (ix2 r j) * wblk m c t (ix2 j q) := by
  have h1 : ¬t.val % 4 = 3 := by omega
  rw [outsAt0_A m c t h0 h1]
  dsimp only
  rw [sout_A]
  refine (Pay.pay2_apply (k0_pay1 (F := Ideal)) (lblk m c t) (wblk m c t) r q).trans ?_
  rw [Pay.pay1_apply]

/-- After a later reduction step: what the step before left plus the point's partial products. -/
theorem acc_later (c : Dev nD) (t : Fin cfg0.N) (h0 : ¬t.val % 4 = 0) (r : Fin 512) (q : Fin 4096) :
    ((outsAt0 m c t.val t.isLt).2.2 : Vec Ideal S512x4096 .f32) (ix2 r q)
      = ((outsAt0 m c (t.val - 1) (Nat.lt_of_le_of_lt (Nat.sub_le _ _) t.isLt)).2.2 : Vec Ideal S512x4096 .f32) (ix2 r q)
        + ∑ j : Fin 640, lblk m c t (ix2 r j) * wblk m c t (ix2 j q) := by
  by_cases h1 : t.val % 4 = 3
  · rw [outsAt0_C m c t h0 h1]
    dsimp only
    rw [sout_C]
    exact Pay.pay2_apply ((outsAt0 m c (t.val - 1) (Nat.lt_of_le_of_lt (Nat.sub_le _ _) t.isLt)).2.2) (lblk m c t) (wblk m c t) r q
  · rw [outsAt0_B m c t h0 h1]
    dsimp only
    rw [sout_B]
    exact Pay.pay2_apply ((outsAt0 m c (t.val - 1) (Nat.lt_of_le_of_lt (Nat.sub_le _ _) t.isLt)).2.2) (lblk m c t) (wblk m c t) r q

/-- The point's partial products are the specification's partial inner product of the whole operands. -/
theorem blockDot_eq (c : Dev nD) (t : Fin cfg0.N) (mi : Fin 8) (kk : Fin 4) (ht : t.val = 4 * mi.val + kk.val) (r : Fin 512) (q : Fin 4096) :
    (∑ j : Fin 640, lblk m c t (ix2 r j) * wblk m c t (ix2 j q))
      = blockDot (AA m c) (BA m c) (ridx mi r) q kk :=
  Finset.sum_congr rfl fun j _ => by
    rw [show lblk m c t (ix2 r j) = AA m c (ix2 (ridx mi r) (kidx kk j)) from iblk0_apply m c t mi kk ht r j,
      show wblk m c t (ix2 j q) = BA m c (ix2 (kidx kk j) q) from iblk1_apply m c t mi kk ht j q]

/-- THE ACCUMULATOR after point 4·mi + kk, entry by entry. -/
theorem acc_eq (c : Dev nD) (mi : Fin 8) (r : Fin 512) (q : Fin 4096) :
    ∀ (kk : ℕ) (hk : kk < 4) (t : Fin cfg0.N) (ht : t.val = 4 * mi.val + kk),
      ((outsAt0 m c t.val t.isLt).2.2 : Vec Ideal S512x4096 .f32) (ix2 r q) = accUpTo (AA m c) (BA m c) (ridx mi r) q kk hk
  | 0, hk, t, ht => by
    rw [acc_first m c t (by omega) r q, blockDot_eq m c t mi ⟨0, hk⟩ ht r q]
    rfl
  | k + 1, hk, t, ht => by
    have hN : cfg0.N = 32 := N_0
    have hlt : t.val - 1 < cfg0.N := Nat.lt_of_le_of_lt (Nat.sub_le _ _) t.isLt
    rw [acc_later m c t (by omega) r q, blockDot_eq m c t mi ⟨k + 1, hk⟩ ht r q]
    have ih := acc_eq c mi r q k (Nat.lt_of_succ_lt hk) ⟨t.val - 1, hlt⟩ (by show t.val - 1 = 4 * mi.val + k; omega)
    rw [show ((outsAt0 m c (t.val - 1) (Nat.lt_of_le_of_lt (Nat.sub_le _ _) t.isLt)).2.2 : Vec Ideal S512x4096 .f32) (ix2 r q)
        = accUpTo (AA m c) (BA m c) (ridx mi r) q k (Nat.lt_of_succ_lt hk) from ih]
    rfl

/-- At a row block's last step the hidden-state block is the gate formula of the accumulator just finished. -/
theorem out3_eq (c : Dev nD) (t : Fin cfg0.N) (h3 : t.val % 4 = 3) :
    ((outsAt0 m c t.val t.isLt).1 : Vec Ideal S512x1024 .f32)
      = k0_pay4 ((outsAt0 m c t.val t.isLt).2.2) (iblk m c 2 t) := by
  have h0 : ¬t.val % 4 = 0 := by omega
  rw [outsAt0_C m c t h0 h3]
  dsimp only
  rw [out_C_3, sout_C]

/-- And the state block likewise. -/
theorem out4_eq (c : Dev nD) (t : Fin cfg0.N) (h3 : t.val % 4 = 3) :
    ((outsAt0 m c t.val t.isLt).2.1 : Vec Ideal S512x2048 .f32)
      = k0_pay5 ((outsAt0 m c t.val t.isLt).2.2) (iblk m c 2 t) := by
  have h0 : ¬t.val % 4 = 0 := by omega
  rw [outsAt0_C m c t h0 h3]
  dsimp only
  rw [out_C_4, sout_C]

end Cert.KernelIdeal.Fr

end
-- ==== Proof.IdealValue.HostVals.lean ====
/-
  What the host operations before the region leave in the three arrays the kernel's input windows stage, at the
  ideal instance, entry by entry: the left operand's columns 0 … 511 are the input's, 512 … 1535 the previous hidden
  state's, 1536 … 2559 the cross hidden state's; the weight matrix's rows are split the same way among the three
  weight matrices; the third array is the previous cell state. Narrowing to bf16 is the identity here.
-/
import proofs.«153491_j23012434772050_1_alg».proof.Proof.IdealValue.Args
import Idealize.ShloMosaic.Lib.Pipeline.Value
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Spec

variable (m : (ℓ : Loc nD τ sig) → Buf (Elt Ideal) ℓ)

/-- The left operand as a term: the input and the two hidden states joined along the columns, narrowed. -/
theorem AA_eq (c : Dev nD) :
    (V m c main_v9 : FVec Ideal S4096x2560 .bf16)
      = truncf .bf16 (concatenate S4096x2560 1 [⟨S4096x512, xA m c⟩, ⟨S4096x1024, hpA m c⟩, ⟨S4096x1024, hcA m c⟩]
          concatenates_S4096x512_S4096x1024_S4096x1024_S4096x2560_d1) bitsLt_bf16_f32 := by
  dsimp only [V, hostOps0]; after_results; rfl

/-- The weight matrix as a term: the three weight matrices joined along the rows, narrowed. -/
theorem BA_eq (c : Dev nD) :
    (V m c main_v7 : FVec Ideal S2560x4096 .bf16)
      = truncf .bf16 (concatenate S2560x4096 0 [⟨S512x4096, WA m c⟩, ⟨S1024x4096, UA m c⟩, ⟨S1024x4096, VA m c⟩]
          concatenates_S512x4096_S1024x4096_S1024x4096_S2560x4096_d0) bitsLt_bf16_f32 := by
  dsimp only [V, hostOps0]; after_results; rfl

/-- The left operand's first 512 columns are the input. -/
theorem A_x (c : Dev nD) (b : Fin 4096) (k : Fin 512) :
    AA m c (ix2 b ⟨k.val, by have := k.isLt; omega⟩) = xA m c (ix2 b k) := by
  refine (congrFun (AA_eq m c) _).trans ?_
  refine (truncf_apply (φ := .f32) (ψ := .bf16) _ bitsLt_bf16_f32 _).trans ?_
  exact concatenate_apply_piece (t := S4096x2560) 1 _ _ _ 0 (by show 0 < 3; omega) S4096x512 (xA m c) rfl rfl 0 rfl (ix2 b k)
    (fun d hd => by match d with | ⟨0, _⟩ => rfl | ⟨1, _⟩ => exact absurd rfl hd)
    (by show 0 + k.val = k.val; omega)

/-- Its next 1024 columns are the previous hidden state. -/
theorem A_hp (c : Dev nD) (b : Fin 4096) (k : Fin 1024) :
    AA m c (ix2 b ⟨512 + k.val, by have := k.isLt; omega⟩) = hpA m c (ix2 b k) := by
  refine (congrFun (AA_eq m c) _).trans ?_
  refine (truncf_apply (φ := .f32) (ψ := .bf16) _ bitsLt_bf16_f32 _).trans ?_
  exact concatenate_apply_piece (t := S4096x2560) 1 _ _ _ 1 (by show 1 < 3; omega) S4096x1024 (hpA m c) rfl rfl 512 rfl (ix2 b k)
    (fun d hd => by match d with | ⟨0, _⟩ => rfl | ⟨1, _⟩ => exact absurd rfl hd)
    (by show 512 + k.val = 512 + k.val; rfl)

/-- Its last 1024 columns are the cross hidden state. -/
theorem A_hc (c : Dev nD) (b : Fin 4096) (k : Fin 1024) :
    AA m c (ix2 b ⟨1536 + k.val, by have := k.isLt; omega⟩) = hcA m c (ix2 b k) := by
  refine (congrFun (AA_eq m c) _).trans ?_
  refine (truncf_apply (φ := .f32) (ψ := .bf16) _ bitsLt_bf16_f32 _).trans ?_
  exact concatenate_apply_piece (t := S4096x2560) 1 _ _ _ 2 (by show 2 < 3; omega) S4096x1024 (hcA m c) rfl rfl 1536 rfl (ix2 b k)
    (fun d hd => by match d with | ⟨0, _⟩ => rfl | ⟨1, _⟩ => exact absurd rfl hd)
    (by show 1536 + k.val = 1536 + k.val; rfl)

/-- The weight matrix's first 512 rows are the input weights. -/
theorem B_W (c : Dev nD) (k : Fin 512) (n : Fin 4096) :
    BA m c (ix2 ⟨k.val, by have := k.isLt; omega⟩ n) = WA m c (ix2 k n) := by
  refine (congrFun (BA_eq m c) _).trans ?_
  refine (truncf_apply (φ := .f32) (ψ := .bf16) _ bitsLt_bf16_f32 _).trans ?_
  exact concatenate_apply_piece (t := S2560x4096) 0 _ _ _ 0 (by show 0 < 3; omega) S512x4096 (WA m c) rfl rfl 0 rfl (ix2 k n)
    (fun d hd => by match d with | ⟨0, _⟩ => exact absurd rfl hd | ⟨1, _⟩ => rfl)
    (by show 0 + k.val = k.val; omega)

/-- Its next 1024 rows are the hidden weights. -/
theorem B_U (c : Dev nD) (k : Fin 1024) (n : Fin 4096) :
    BA m c (ix2 ⟨512 + k.val, by have := k.isLt; omega⟩ n) = UA m c (ix2 k n) := by
  refine (congrFun (BA_eq m c) _).trans ?_
  refine (truncf_apply (φ := .f32) (ψ := .bf16) _ bitsLt_bf16_f32 _).trans ?_
  exact concatenate_apply_piece (t := S2560x4096) 0 _ _ _ 1 (by show 1 < 3; omega) S1024x4096 (UA m c) rfl rfl 512 rfl (ix2 k n)
    (fun d hd => by match d with | ⟨0, _⟩ => exact absurd rfl hd | ⟨1, _⟩ => rfl)
    (by show 512 + k.val = 512 + k.val; rfl)

/-- Its last 1024 rows are the cross weights. -/
theorem B_V (c : Dev nD) (k : Fin 1024) (n : Fin 4096) :
    BA m c (ix2 ⟨1536 + k.val, by have := k.isLt; omega⟩ n) = VA m c (ix2 k n) := by
  refine (congrFun (BA_eq m c) _).trans ?_
  refine (truncf_apply (φ := .f32) (ψ := .bf16) _ bitsLt_bf16_f32 _).trans ?_
  exact concatenate_apply_piece (t := S2560x4096) 0 _ _ _ 2 (by show 2 < 3; omega) S1024x4096 (VA m c) rfl rfl 1536 rfl (ix2 k n)
    (fun d hd => by match d with | ⟨0, _⟩ => exact absurd rfl hd | ⟨1, _⟩ => rfl)
    (by show 1536 + k.val = 1536 + k.val; rfl)

/-- The third staged array is the previous cell state. -/
theorem V_cp (c : Dev nD) : (V m c main_v1 : FVec Ideal S4096x1024 .f32) = cpA m c := by
  dsimp only [V, hostOps0]; after_results

end Cert.KernelIdeal.Fr

end
-- ==== Proof.Algebra.lean ====
/-
  The kernel's blocked accumulation is the specification's three inner products: when the left operand's columns
  are the input's, the previous hidden state's and the cross hidden state's in turn, and the weight matrix's rows
  are split the same way, the four partial sums over 640 indices each, added to zero in order, are the sum over all
  2560 indices, which splits at 512 and 1536 into the three sums. Only commutativity and associativity of addition
  on the extended reals are used, which hold with the infinities too.
-/
import proofs.«153491_j23012434772050_1_alg».proof.Proof.KSpec
import Mathlib.Algebra.BigOperators.Group.Finset.Basic
import Mathlib.Data.Fintype.BigOperators

noncomputable section

namespace Cert.Spec

open Idealize.ShloMosaic Idealize.ShloMosaic.ValueIdx

/-- The product at contraction index `k` for row `b` and column `n`, as a function of a natural number
    (zero from 2560 on, where there is no such index). Every sum below is a sum of these over a range. -/
def term (A : Mat 4096 2560) (Bm : Mat 2560 4096) (b n : Fin 4096) (k : ℕ) : EReal :=
  if h : k < 2560 then A (ix2 b ⟨k, h⟩) * Bm (ix2 ⟨k, h⟩ n) else 0

theorem term_of_lt (A : Mat 4096 2560) (Bm : Mat 2560 4096) (b n : Fin 4096) (k : ℕ) (h : k < 2560) :
    term A Bm b n k = A (ix2 b ⟨k, h⟩) * Bm (ix2 ⟨k, h⟩ n) := dif_pos h

/-- A partial inner product is the sum of the products over the 640 naturals from `640 * kb` on. -/
theorem blockDot_eq_range (A : Mat 4096 2560) (Bm : Mat 2560 4096) (b n : Fin 4096) (kb : Fin 4) :
    blockDot A Bm b n kb = ∑ i ∈ Finset.range 640, term A Bm b n (640 * kb.val + i) := by
  rw [← Fin.sum_univ_eq_sum_range (fun i => term A Bm b n (640 * kb.val + i)) 640]
  refine Finset.sum_congr rfl (fun j _ => ?_)
  have h : 640 * kb.val + j.val < 2560 := by have := kb.isLt; have := j.isLt; omega
  exact (term_of_lt A Bm b n _ h).symm

/-- A sum over the first 2560 naturals, cut into four runs of 640. -/
theorem sum_range_four (g : ℕ → EReal) :
    ∑ i ∈ Finset.range 2560, g i
      = ((∑ i ∈ Finset.range 640, g (640 * 0 + i) + ∑ i ∈ Finset.range 640, g (640 * 1 + i))
          + ∑ i ∈ Finset.range 640, g (640 * 2 + i)) + ∑ i ∈ Finset.range 640, g (640 * 3 + i) := by
  have h : (2560 : ℕ) = 640 + 640 + 640 + 640 := rfl
  rw [h, Finset.sum_range_add, Finset.sum_range_add, Finset.sum_range_add]
  rfl

/-- The same sum cut at 512 and 1536. -/
theorem sum_range_three (g : ℕ → EReal) :
    ∑ i ∈ Finset.range 2560, g i
      = (∑ i ∈ Finset.range 512, g i + ∑ i ∈ Finset.range 1024, g (512 + i))
          + ∑ i ∈ Finset.range 1024, g (1536 + i) := by
  have h : (2560 : ℕ) = 512 + 1024 + 1024 := rfl
  rw [h, Finset.sum_range_add, Finset.sum_range_add]

/-- The accumulator after the last step is the sum of all 2560 products. -/
theorem kgate_eq_sum (A : Mat 4096 2560) (Bm : Mat 2560 4096) (b n : Fin 4096) :
    kgate A Bm b n = ∑ i ∈ Finset.range 2560, term A Bm b n i := by
  have hk : kgate A Bm b n
      = (((0 + blockDot A Bm b n ⟨0, by omega⟩) + blockDot A Bm b n ⟨1, by omega⟩)
          + blockDot A Bm b n ⟨2, by omega⟩) + blockDot A Bm b n ⟨3, by omega⟩ := rfl
  rw [hk, zero_add, blockDot_eq_range, blockDot_eq_range, blockDot_eq_range, blockDot_eq_range,
    sum_range_four]

theorem kgate_eq_gate (A : Mat 4096 2560) (Bm : Mat 2560 4096) (x : Mat 4096 512) (hp hc : Mat 4096 1024)
    (W : Mat 512 4096) (U V : Mat 1024 4096)
    (hA0 : ∀ (b : Fin 4096) (k : Fin 512), A (ix2 b ⟨k.val, by have := k.isLt; omega⟩) = x (ix2 b k))
    (hA1 : ∀ (b : Fin 4096) (k : Fin 1024), A (ix2 b ⟨512 + k.val, by have := k.isLt; omega⟩) = hp (ix2 b k))
    (hA2 : ∀ (b : Fin 4096) (k : Fin 1024), A (ix2 b ⟨1536 + k.val, by have := k.isLt; omega⟩) = hc (ix2 b k))
    (hB0 : ∀ (k : Fin 512) (n : Fin 4096), Bm (ix2 ⟨k.val, by have := k.isLt; omega⟩ n) = W (ix2 k n))
    (hB1 : ∀ (k : Fin 1024) (n : Fin 4096), Bm (ix2 ⟨512 + k.val, by have := k.isLt; omega⟩ n) = U (ix2 k n))
    (hB2 : ∀ (k : Fin 1024) (n : Fin 4096), Bm (ix2 ⟨1536 + k.val, by have := k.isLt; omega⟩ n) = V (ix2 k n)) :
    kgate A Bm = gate x hp hc W U V := by
  funext b n
  rw [kgate_eq_sum, sum_range_three]
  unfold gate
  have e0 : ∑ i ∈ Finset.range 512, term A Bm b n i = ∑ k : Fin 512, x (ix2 b k) * W (ix2 k n) := by
    rw [← Fin.sum_univ_eq_sum_range (fun i => term A Bm b n i) 512]
    refine Finset.sum_congr rfl (fun k _ => ?_)
    have h : k.val < 2560 := by have := k.isLt; omega
    rw [term_of_lt A Bm b n _ h, ← hA0 b k, ← hB0 k n]
  have e1 : ∑ i ∈ Finset.range 1024, term A Bm b n (512 + i)
      = ∑ k : Fin 1024, hp (ix2 b k) * U (ix2 k n) := by
    rw [← Fin.sum_univ_eq_sum_range (fun i => term A Bm b n (512 + i)) 1024]
    refine Finset.sum_congr rfl (fun k _ => ?_)
    have h : 512 + k.val < 2560 := by have := k.isLt; omega
    rw [term_of_lt A Bm b n _ h, ← hA1 b k, ← hB1 k n]
  have e2 : ∑ i ∈ Finset.range 1024, term A Bm b n (1536 + i)
      = ∑ k : Fin 1024, hc (ix2 b k) * V (ix2 k n) := by
    rw [← Fin.sum_univ_eq_sum_range (fun i => term A Bm b n (1536 + i)) 1024]
    refine Finset.sum_congr rfl (fun k _ => ?_)
    have h : 1536 + k.val < 2560 := by have := k.isLt; omega
    rw [term_of_lt A Bm b n _ h, ← hA2 b k, ← hB2 k n]
  rw [e0, e1, e2]

end Cert.Spec

end
-- ==== Proof.IdealValue.Final.lean ====
/-
  The two result arrays after the run, at the ideal instance. A row block's last grid point writes back rows
  512·mi … 512·mi + 511 of each result; those 8 blocks tile the arrays; and what is written is the gate formulas of
  the finished pre-activations, which are the specification's three inner products. So the first result ends at the
  specification's hidden state and the second at its hidden and cell states side by side.
-/
import proofs.«153491_j23012434772050_1_alg».proof.Proof.IdealValue.Acc
import proofs.«153491_j23012434772050_1_alg».proof.Proof.IdealValue.HostVals
import proofs.«153491_j23012434772050_1_alg».proof.Proof.Algebra

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Spec

variable (m : (ℓ : Loc nD τ sig) → Buf (Elt Ideal) ℓ) (ρ : Dev nD → PrngReg)

/-- The finished pre-activations are the specification's. -/
theorem kgate_spec (c : Dev nD) :
    kgate (AA m c) (BA m c) = gate (xA m c) (hpA m c) (hcA m c) (WA m c) (UA m c) (VA m c) :=
  kgate_eq_gate (AA m c) (BA m c) (xA m c) (hpA m c) (hcA m c) (WA m c) (UA m c) (VA m c)
    (A_x m c) (A_hp m c) (A_hc m c) (B_W m c) (B_U m c) (B_V m c)

/-- What the hidden-state array ends holding. -/
def G3 (c : Dev nD) : FVec Ideal S4096x1024 .f32 := outH (kgate (AA m c) (BA m c)) (cpA m c)
/-- What the state array ends holding. -/
def G4 (c : Dev nD) : FVec Ideal S4096x2048 .f32 := outS (kgate (AA m c) (BA m c)) (cpA m c)

/-- The result windows' block indices over the grid: the row block, column block 0. -/
theorem idx3 : ∀ t : Fin cfg0.N, win0_3.index t (0 : Fin 2) = t.val / 4 ∧ win0_3.index t (1 : Fin 2) = 0 :=
  (by decide +kernel : ∀ t : Fin grid0.N, win0_3.index t (0 : Fin 2) = t.val / 4 ∧ win0_3.index t (1 : Fin 2) = 0)
theorem idx4 : ∀ t : Fin cfg0.N, win0_4.index t (0 : Fin 2) = t.val / 4 ∧ win0_4.index t (1 : Fin 2) = 0 :=
  (by decide +kernel : ∀ t : Fin grid0.N, win0_4.index t (0 : Fin 2) = t.val / 4 ∧ win0_4.index t (1 : Fin 2) = 0)

/-- The accumulator's row at a row block's last step is the row of finished pre-activations. -/
theorem row_eq (c : Dev nD) (t : Fin cfg0.N) (mi : Fin 8) (ht : t.val = 4 * mi.val + 3) (r : Fin 512) :
    (fun n => ((outsAt0 m c t.val t.isLt).2.2 : Vec Ideal S512x4096 .f32) (ix2 r n)) = kgate (AA m c) (BA m c) (ridx mi r) :=
  funext fun n => acc_eq m c mi r n 3 (by omega) t ht

/-- The previous cell state's block entry is the array's. -/
theorem cp_eq (c : Dev nD) (t : Fin cfg0.N) (mi : Fin 8) (ht : t.val = 4 * mi.val + 3) (r : Fin 512) (j : Fin 1024) :
    (iblk m c 2 t : Vec Ideal S512x1024 .f32) (ix2 r j) = cpA m c (ix2 (ridx mi r) j) := by
  rw [iblk2_apply m c t mi ⟨3, by omega⟩ ht r j, V_cp]

/-- Where an entry of the hidden-state block sits in the array. -/
theorem emb3 (t : Fin cfg0.N) (mi : Fin 8) (ht : t.val = 4 * mi.val + 3) (r : Fin 512) (j : Fin 1024) :
    ((cfg0.win 3).blk t).view.emb (ix2 r j) = ix2 (ridx mi r) j := by
  obtain ⟨e0, e1⟩ := idx3 t
  funext a; apply Fin.ext
  match a with
  | ⟨0, _⟩ => show win0_3.index t (0 : Fin 2) * 512 + 1 * r.val = 512 * mi.val + r.val; omega
  | ⟨1, _⟩ => show win0_3.index t (1 : Fin 2) * 1024 + 1 * j.val = j.val; omega

/-- Where an entry of the state block sits in the array. -/
theorem emb4 (t : Fin cfg0.N) (mi : Fin 8) (ht : t.val = 4 * mi.val + 3) (r : Fin 512) (q : Fin 2048) :
    ((cfg0.win 4).blk t).view.emb (ix2 r q) = ix2 (ridx mi r) q := by
  obtain ⟨e0, e1⟩ := idx4 t
  funext a; apply Fin.ext
  match a with
  | ⟨0, _⟩ => show win0_4.index t (0 : Fin 2) * 512 + 1 * r.val = 512 * mi.val + r.val; omega
  | ⟨1, _⟩ => show win0_4.index t (1 : Fin 2) * 2048 + 1 * q.val = q.val; omega

/-- What a row block's last point writes back into the hidden-state array is that block of `G3`. -/
theorem flushed3_eq (c : Dev nD) (t : Fin cfg0.N) (hf : (cfg0.win 3).flush t = true) :
    (dats m 0 c).flushed 3 t = ((cfg0.win 3).blk t).view.read (Elt Ideal) (G3 m c) := by
  have hN : cfg0.N = 32 := N_0
  have h3 : t.val % 4 = 3 := (flush0_3 t).mp hf
  have htl : t.val < 32 := lt_of_lt_of_eq t.isLt hN
  obtain ⟨mi, ht⟩ : ∃ mi : Fin 8, t.val = 4 * mi.val + 3 := ⟨⟨t.val / 4, by omega⟩, by show t.val = 4 * (t.val / 4) + 3; omega⟩
  show (cfg0.win 3).cut (grid0.coords t) ((dats m 0 c).after 3 t) = _
  rw [after0_3, out3_eq m c t h3]
  funext y
  obtain ⟨r, j, rfl⟩ : ∃ (r : Fin 512) (j : Fin 1024), y = ix2 r j := ⟨y 0, y 1, eq_ix2 y⟩
  show k0_pay4 (F := Ideal) ((outsAt0 m c t.val t.isLt).2.2) (iblk m c 2 t) (ix2 r j) = G3 m c (((cfg0.win 3).blk t).view.emb (ix2 r j))
  rw [emb3 t mi ht r j]
  refine (Pay.pay4_apply ((outsAt0 m c t.val t.isLt).2.2) (iblk m c 2 t) r j).trans ?_
  rw [row_eq m c t mi ht r, cp_eq m c t mi ht r j]
  rfl

/-- And into the state array that block of `G4`. -/
theorem flushed4_eq (c : Dev nD) (t : Fin cfg0.N) (hf : (cfg0.win 4).flush t = true) :
    (dats m 0 c).flushed 4 t = ((cfg0.win 4).blk t).view.read (Elt Ideal) (G4 m c) := by
  have hN : cfg0.N = 32 := N_0
  have h3 : t.val % 4 = 3 := (flush0_4 t).mp hf
  have htl : t.val < 32 := lt_of_lt_of_eq t.isLt hN
  obtain ⟨mi, ht⟩ : ∃ mi : Fin 8, t.val = 4 * mi.val + 3 := ⟨⟨t.val / 4, by omega⟩, by show t.val = 4 * (t.val / 4) + 3; omega⟩
  show (cfg0.win 4).cut (grid0.coords t) ((dats m 0 c).after 4 t) = _
  rw [after0_4, out4_eq m c t h3]
  funext y
  obtain ⟨r, q, rfl⟩ : ∃ (r : Fin 512) (q : Fin 2048), y = ix2 r q := ⟨y 0, y 1, eq_ix2 y⟩
  show k0_pay5 (F := Ideal) ((outsAt0 m c t.val t.isLt).2.2) (iblk m c 2 t) (ix2 r q) = G4 m c (((cfg0.win 4).blk t).view.emb (ix2 r q))
  rw [emb4 t mi ht r q]
  refine (Pay.pay5_apply ((outsAt0 m c t.val t.isLt).2.2) (iblk m c 2 t) r q).trans ?_
  rw [row_eq m c t mi ht r]
  by_cases hq : q.val < 1024
  · rw [dif_pos hq, cp_eq m c t mi ht r ⟨q.val, hq⟩]
    show _ = outS (kgate (AA m c) (BA m c)) (cpA m c) (ix2 (ridx mi r) q)
    unfold outS
    rw [dif_pos (show ((ix2 (ridx mi r) q : (⟨2, ![4096, 2048]⟩ : Shape).Idx) 1).val < 1024 from hq)]
    rfl
  · rw [dif_neg hq, cp_eq m c t mi ht r ⟨q.val - 1024, by have := q.isLt; omega⟩]
    show _ = outS (kgate (AA m c) (BA m c)) (cpA m c) (ix2 (ridx mi r) q)
    unfold outS
    rw [dif_neg (show ¬((ix2 (ridx mi r) q : (⟨2, ![4096, 2048]⟩ : Shape).Idx) 1).val < 1024 from hq)]
    rfl

/-- Every entry of the hidden-state array is in the block some row block's last point writes back. -/
theorem cover3 (i : S4096x1024.Idx) : ∃ t : Fin cfg0.N, (cfg0.win 3).flush t = true ∧ i ∈ ((cfg0.win 3).blk t).view.set := by
  have hN : cfg0.N = 32 := N_0
  have hi0 : (i 0).val < 4096 := (i 0).isLt
  have hi1 : (i 1).val < 1024 := (i 1).isLt
  have htN : 4 * ((i 0).val / 512) + 3 < cfg0.N := by omega
  obtain ⟨e0, e1⟩ := idx3 ⟨4 * ((i 0).val / 512) + 3, htN⟩
  have tv : (⟨4 * ((i 0).val / 512) + 3, htN⟩ : Fin cfg0.N).val = 4 * ((i 0).val / 512) + 3 := rfl
  refine ⟨⟨4 * ((i 0).val / 512) + 3, htN⟩, (flush0_3 _).mpr (by omega), ?_⟩
  show i ∈ ((View.whole main_v10_0).slice (win0_3.rect ⟨4 * ((i 0).val / 512) + 3, htN⟩)).set
  rw [View.set_slice_whole, Rect.mem_set_unit]
  intro a
  match a with
  | ⟨0, _⟩ => show win0_3.index ⟨4 * ((i 0).val / 512) + 3, htN⟩ (0 : Fin 2) * 512 ≤ (i 0).val ∧ (i 0).val < win0_3.index ⟨4 * ((i 0).val / 512) + 3, htN⟩ (0 : Fin 2) * 512 + 512; omega
  | ⟨1, _⟩ => show win0_3.index ⟨4 * ((i 0).val / 512) + 3, htN⟩ (1 : Fin 2) * 1024 ≤ (i 1).val ∧ (i 1).val < win0_3.index ⟨4 * ((i 0).val / 512) + 3, htN⟩ (1 : Fin 2) * 1024 + 1024; omega

/-- The same for the state array. -/
theorem cover4 (i : S4096x2048.Idx) : ∃ t : Fin cfg0.N, (cfg0.win 4).flush t = true ∧ i ∈ ((cfg0.win 4).blk t).view.set := by
  have hN : cfg0.N = 32 := N_0
  have hi0 : (i 0).val < 4096 := (i 0).isLt
  have hi1 : (i 1).val < 2048 := (i 1).isLt
  have htN : 4 * ((i 0).val / 512) + 3 < cfg0.N := by omega
  obtain ⟨e0, e1⟩ := idx4 ⟨4 * ((i 0).val / 512) + 3, htN⟩
  have tv : (⟨4 * ((i 0).val / 512) + 3, htN⟩ : Fin cfg0.N).val = 4 * ((i 0).val / 512) + 3 := rfl
  refine ⟨⟨4 * ((i 0).val / 512) + 3, htN⟩, (flush0_4 _).mpr (by omega), ?_⟩
  show i ∈ ((View.whole main_v10_1).slice (win0_4.rect ⟨4 * ((i 0).val / 512) + 3, htN⟩)).set
  rw [View.set_slice_whole, Rect.mem_set_unit]
  intro a
  match a with
  | ⟨0, _⟩ => show win0_4.index ⟨4 * ((i 0).val / 512) + 3, htN⟩ (0 : Fin 2) * 512 ≤ (i 0).val ∧ (i 0).val < win0_4.index ⟨4 * ((i 0).val / 512) + 3, htN⟩ (0 : Fin 2) * 512 + 512; omega
  | ⟨1, _⟩ => show win0_4.index ⟨4 * ((i 0).val / 512) + 3, htN⟩ (1 : Fin 2) * 2048 ≤ (i 1).val ∧ (i 1).val < win0_4.index ⟨4 * ((i 0).val / 512) + 3, htN⟩ (1 : Fin 2) * 2048 + 2048; omega

/-- The hidden-state array after the run. -/
theorem final3 (c : Dev nD) : (dats m 0 c).arrAt 3 cfg0.N = G3 m c :=
  (dats m 0 c).arrAt_eq_of_cover 3 (G3 m c) (flushed3_eq m c) cover3
/-- The state array after the run. -/
theorem final4 (c : Dev nD) : (dats m 0 c).arrAt 4 cfg0.N = G4 m c :=
  (dats m 0 c).arrAt_eq_of_cover 4 (G4 m c) (flushed4_eq m c) cover4

/-- THE RUN at the ideal instance: both results at the specification's functions of the operands, the arguments
    unchanged. -/
theorem run : θ_run defs (onTc (τ := τ) (main (F := Ideal))) ⟨m, fun _ => 0, ρ⟩ fun r => ∀ c : Dev nD,
      r.2.mem ((c.tc : Thread nD τ).loc main_v10_0) = outH (gate (xA m c) (hpA m c) (hcA m c) (WA m c) (UA m c) (VA m c)) (cpA m c)
      ∧ r.2.mem ((c.tc : Thread nD τ).loc main_v10_1) = outS (gate (xA m c) (hpA m c) (hcA m c) (WA m c) (UA m c) (VA m c)) (cpA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(((h c).1 3).trans (final3 m c)).trans (by unfold G3; rw [kgate_spec]),
      (((h c).1 4).trans (final4 m c)).trans (by unfold G4; rw [kgate_spec]),
      ((h c).2 main_arg0 (Pipeline.mem_restRefs_of main_arg0 (by decide) (by decide))).trans (V_unwritten m c main_arg0 (by decide)),
      ((h c).2 main_arg1 (Pipeline.mem_restRefs_of main_arg1 (by decide) (by decide))).trans (V_unwritten m c main_arg1 (by decide)),
      ((h c).2 main_arg2 (Pipeline.mem_restRefs_of main_arg2 (by decide) (by decide))).trans (V_unwritten m c main_arg2 (by decide)),
      ((h c).2 main_arg3 (Pipeline.mem_restRefs_of main_arg3 (by decide) (by decide))).trans (V_unwritten m c main_arg3 (by decide)),
      ((h c).2 main_arg4 (Pipeline.mem_restRefs_of main_arg4 (by decide) (by decide))).trans (V_unwritten m c main_arg4 (by decide)),
      ((h c).2 main_arg5 (Pipeline.mem_restRefs_of main_arg5 (by decide) (by decide))).trans (V_unwritten m c main_arg5 (by decide)),
      ((h c).2 main_arg6 (Pipeline.mem_restRefs_of main_arg6 (by decide) (by decide))).trans (V_unwritten m c main_arg6 (by decide)),
      ((h c).2 main_arg7 (Pipeline.mem_restRefs_of main_arg7 (by decide) (by decide))).trans (V_unwritten m c main_arg7 (by decide)),
      ((h c).2 main_arg8 (Pipeline.mem_restRefs_of main_arg8 (by decide) (by decide))).trans (V_unwritten m c main_arg8 (by decide)),
      ((h c).2 main_arg9 (Pipeline.mem_restRefs_of main_arg9 (by decide) (by decide))).trans (V_unwritten m c main_arg9 (by decide)),
      ((h c).2 main_arg10 (Pipeline.mem_restRefs_of main_arg10 (by decide) (by decide))).trans (V_unwritten m c main_arg10 (by decide)),
      ((h c).2 main_arg11 (Pipeline.mem_restRefs_of main_arg11 (by decide) (by decide))).trans (V_unwritten m c main_arg11 (by decide)),
      ((h c).2 main_arg12 (Pipeline.mem_restRefs_of main_arg12 (by decide) (by decide))).trans (V_unwritten m c main_arg12 (by decide)),
      ((h c).2 main_arg13 (Pipeline.mem_restRefs_of main_arg13 (by decide) (by decide))).trans (V_unwritten m c main_arg13 (by decide)),
      ((h c).2 main_arg14 (Pipeline.mem_restRefs_of main_arg14 (by decide) (by decide))).trans (V_unwritten m c main_arg14 (by decide))⟩)
    (run_main m ρ)

end Cert.KernelIdeal.Fr

end
-- ==== Proof.RefValue.lean ====
/-
  The reference program's two results are the LSTM cell of the specification.

  The reference adds three matrix products into one array of pre-activations with 4096 columns, cuts that array into
  four blocks of 1024 columns, applies the logistic function to the first three blocks (spelt as one over one plus
  the exponential of the negated argument) and the hyperbolic tangent to the fourth, and combines them:
  the new cell state is forget · previous cell + input · candidate, the new hidden state is output · tanh (new cell),
  and the second result lays the hidden state and the cell state side by side.

  Each step below reads one of these arrays at a batch row `b` and a column `j`. Column `j` of block `q` of the
  pre-activations is column `1024 q + j` of the whole array, which is the specification's `col q j`; and on the
  extended reals the spelt-out quotient is the logistic function by definition, the constant being the number one.
-/
import proofs.«153491_j23012434772050_1_alg».proof.Proof.Gen.ReferenceIdeal.Read
import proofs.«153491_j23012434772050_1_alg».proof.Proof.Spec
import Idealize.ShloMosaic.Lib.Pipeline.Value
import Idealize.ShloMosaic.Lib.ValueIdx
import Idealize.ShloMosaic.PureOps.Ideal

noncomputable section

namespace Cert.RefValue

open Cert.ReferenceIdeal Cert.ReferenceIdeal.Read Cert.ReferenceIdeal.Gen Idealize.ShloMosaic Idealize.ShloMosaic.ValueIdx Cert.Spec

/-- The single-precision bit pattern of one is the number one. -/
theorem one_bits : Ideal.ofBits .f32 0x3F800000#32 = 1 := by
  simp [Ideal.ofBits, Ideal.ieee, -EReal.coe_mul]; norm_num

/-- One over one plus the exponential of the negated argument, as the reference spells it, is the logistic function. -/
theorem logistic_spelt (g : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf g))) = Ideal.logistic g := by
  rw [Ideal.ofBits_def, one_bits]; rfl

/-- The specification's second result at a column below 1024 is the hidden state at that column. -/
theorem outS_left (g : Fin 4096 → Fin 4096 → EReal) (cp : Mat 4096 1024) (b : Fin 4096) (c : Fin 2048) (hc : c.val < 1024) :
    outS g cp (ix2 b c) = cellH g cp b ⟨c.val, hc⟩ := by
  unfold outS
  exact dif_pos hc

/-- The specification's second result at a column from 1024 on is the cell state at the column less 1024. -/
theorem outS_right (g : Fin 4096 → Fin 4096 → EReal) (cp : Mat 4096 1024) (b : Fin 4096) (c : Fin 2048) (hc : ¬ c.val < 1024) :
    outS g cp (ix2 b c) = cellC g cp b ⟨c.val - 1024, by have := c.isLt; omega⟩ := by
  unfold outS
  exact dif_neg hc

section
variable (x0 : (⟨S4096x512, .f32⟩ : BufTy).Contents (Elt Ideal)) (x1 x2 : (⟨S4096x2048, .f32⟩ : BufTy).Contents (Elt Ideal))
  (x3 : (⟨S512x1024, .f32⟩ : BufTy).Contents (Elt Ideal)) (x4 x5 : (⟨S1024x1024, .f32⟩ : BufTy).Contents (Elt Ideal))
  (x6 : (⟨S512x1024, .f32⟩ : BufTy).Contents (Elt Ideal)) (x7 x8 : (⟨S1024x1024, .f32⟩ : BufTy).Contents (Elt Ideal))
  (x9 : (⟨S512x1024, .f32⟩ : BufTy).Contents (Elt Ideal)) (x10 x11 : (⟨S1024x1024, .f32⟩ : BufTy).Contents (Elt Ideal))
  (x12 : (⟨S512x1024, .f32⟩ : BufTy).Contents (Elt Ideal)) (x13 x14 : (⟨S1024x1024, .f32⟩ : BufTy).Contents (Elt Ideal))

/-- The pre-activations of the specification at the reference's operands: the input, the two hidden slices and the
    three weight matrices, each the four gates' blocks laid side by side. -/
local notation "G" => Cert.Spec.gate x0 (val_main_v0 (F := Ideal) x1) (val_main_v2 (F := Ideal) x2)
  (val_main_v3 (F := Ideal) x3 x6 x9 x12) (val_main_v4 (F := Ideal) x4 x7 x10 x13) (val_main_v5 (F := Ideal) x5 x8 x11 x14)

/-- The sum of the three products at row `b`, column `n` is the specification's pre-activation there: each product
    is a sum over the contracted coordinate `k` of the left operand at `(b, k)` times the right at `(k, n)`. -/
theorem pre_apply (b n : Fin 4096) :
    val_main_v10 (F := Ideal) x0 x1 x2 x3 x4 x5 x6 x7 x8 x9 x10 x11 x12 x13 x14 (ix2 b n) = G b n := by
  rw [val_main_v10_apply, val_main_v8_apply, val_main_v6_apply, val_main_v7_apply, val_main_v9_apply]
  have e6l : ∀ k, lidx_main_v6 (ix2 b n) k = ix2 b k := fun k => funext fun a => Fin.ext (by match a with | ⟨0, _⟩ => rfl | ⟨1, _⟩ => rfl)
  have e6r : ∀ k, ridx_main_v6 (ix2 b n) k = ix2 k n := fun k => funext fun a => Fin.ext (by match a with | ⟨0, _⟩ => rfl | ⟨1, _⟩ => rfl)
  have e7l : ∀ k, lidx_main_v7 (ix2 b n) k = ix2 b k := fun k => funext fun a => Fin.ext (by match a with | ⟨0, _⟩ => rfl | ⟨1, _⟩ => rfl)
  have e7r : ∀ k, ridx_main_v7 (ix2 b n) k = ix2 k n := fun k => funext fun a => Fin.ext (by match a with | ⟨0, _⟩ => rfl | ⟨1, _⟩ => rfl)
  have e9l : ∀ k, lidx_main_v9 (ix2 b n) k = ix2 b k := fun k => funext fun a => Fin.ext (by match a with | ⟨0, _⟩ => rfl | ⟨1, _⟩ => rfl)
  have e9r : ∀ k, ridx_main_v9 (ix2 b n) k = ix2 k n := fun k => funext fun a => Fin.ext (by match a with | ⟨0, _⟩ => rfl | ⟨1, _⟩ => rfl)
  simp only [e6l, e6r, e7l, e7r, e9l, e9r]
  rfl

/-- The input gate: the logistic function of block 0 of the pre-activations. -/
theorem input_apply (b : Fin 4096) (j : Fin 1024) :
    val_main_v17 (F := Ideal) x0 x1 x2 x3 x4 x5 x6 x7 x8 x9 x10 x11 x12 x13 x14 (ix2 b j) = Ideal.logistic (G b (col 0 (by omega) j)) := by
  rw [val_main_v17_apply, val_main_v16_apply, val_main_cst_0_apply, val_main_v15_apply, val_main_v14_apply,
    val_main_cst_apply, val_main_v13_apply, val_main_v12_apply, val_main_v11_apply]
  have e : idx_main_v11 (ix2 b j) = ix2 b (col 0 (by omega) j) :=
    funext fun a => Fin.ext (by match a with | ⟨0, _⟩ => rfl | ⟨1, _⟩ => (show j.val = 1024 * 0 + j.val; omega))
  rw [e, pre_apply]
  exact logistic_spelt _

/-- The forget gate: the logistic function of block 1 of the pre-activations. -/
theorem forget_apply (b : Fin 4096) (j : Fin 1024) :
    val_main_v24 (F := Ideal) x0 x1 x2 x3 x4 x5 x6 x7 x8 x9 x10 x11 x12 x13 x14 (ix2 b j) = Ideal.logistic (G b (col 1 (by omega) j)) := by
  rw [val_main_v24_apply, val_main_v23_apply, val_main_cst_2_apply, val_main_v22_apply, val_main_v21_apply,
    val_main_cst_1_apply, val_main_v20_apply, val_main_v19_apply, val_main_v18_apply]
  have e : idx_main_v18 (ix2 b j) = ix2 b (col 1 (by omega) j) :=
    funext fun a => Fin.ext (by match a with | ⟨0, _⟩ => rfl | ⟨1, _⟩ => (show 1024 + j.val = 1024 * 1 + j.val; omega))
  rw [e, pre_apply]
  exact logistic_spelt _

/-- The output gate: the logistic function of block 2 of the pre-activations. -/
theorem output_apply (b : Fin 4096) (j : Fin 1024) :
    val_main_v31 (F := Ideal) x0 x1 x2 x3 x4 x5 x6 x7 x8 x9 x10 x11 x12 x13 x14 (ix2 b j) = Ideal.logistic (G b (col 2 (by omega) j)) := by
  rw [val_main_v31_apply, val_main_v30_apply, val_main_cst_4_apply, val_main_v29_apply, val_main_v28_apply,
    val_main_cst_3_apply, val_main_v27_apply, val_main_v26_apply, val_main_v25_apply]
  have e : idx_main_v25 (ix2 b j) = ix2 b (col 2 (by omega) j) :=
    funext fun a => Fin.ext (by match a with | ⟨0, _⟩ => rfl | ⟨1, _⟩ => (show 2048 + j.val = 1024 * 2 + j.val; omega))
  rw [e, pre_apply]
  exact logistic_spelt _

/-- The candidate: the hyperbolic tangent of block 3 of the pre-activations. -/
theorem candidate_apply (b : Fin 4096) (j : Fin 1024) :
    val_main_v33 (F := Ideal) x0 x1 x2 x3 x4 x5 x6 x7 x8 x9 x10 x11 x12 x13 x14 (ix2 b j) = Ideal.tanh (G b (col 3 (by omega) j)) := by
  rw [val_main_v33_apply, val_main_v32_apply]
  have e : idx_main_v32 (ix2 b j) = ix2 b (col 3 (by omega) j) :=
    funext fun a => Fin.ext (by match a with | ⟨0, _⟩ => rfl | ⟨1, _⟩ => (show 3072 + j.val = 1024 * 3 + j.val; omega))
  rw [e, pre_apply]
  rfl

/-- The new cell state: forget · previous cell + input · candidate. -/
theorem cell_apply (b : Fin 4096) (j : Fin 1024) :
    val_main_v36 (F := Ideal) x0 x1 x2 x3 x4 x5 x6 x7 x8 x9 x10 x11 x12 x13 x14 (ix2 b j) = cellC G (val_main_v1 (F := Ideal) x1) b j := by
  rw [val_main_v36_apply, val_main_v34_apply, val_main_v35_apply, forget_apply, input_apply, candidate_apply]
  rfl

/-- The new hidden state: output · tanh (new cell). -/
theorem hidden_apply (b : Fin 4096) (j : Fin 1024) :
    val_main_v38 (F := Ideal) x0 x1 x2 x3 x4 x5 x6 x7 x8 x9 x10 x11 x12 x13 x14 (ix2 b j) = cellH G (val_main_v1 (F := Ideal) x1) b j := by
  rw [val_main_v38_apply, val_main_v37_apply, output_apply, cell_apply]
  rfl

/-- The reference's first result is the specification's hidden state. -/
theorem ref_h :
    val_main_v38 (F := Ideal) x0 x1 x2 x3 x4 x5 x6 x7 x8 x9 x10 x11 x12 x13 x14 = outH G (val_main_v1 (F := Ideal) x1) := by
  funext i
  obtain ⟨b, j, rfl⟩ : ∃ (b : Fin 4096) (j : Fin 1024), i = ix2 b j := ⟨i 0, i 1, eq_ix2 i⟩
  exact hidden_apply x0 x1 x2 x3 x4 x5 x6 x7 x8 x9 x10 x11 x12 x13 x14 b j

/-- The reference's second result is the specification's: a column below 1024 falls in the first piece of the
    concatenation, the hidden state at that column; a column from 1024 on falls in the second piece, the cell state
    at the column less 1024. -/
theorem ref_s :
    val_main_v39 (F := Ideal) x0 x1 x2 x3 x4 x5 x6 x7 x8 x9 x10 x11 x12 x13 x14 = outS G (val_main_v1 (F := Ideal) x1) := by
  funext i
  obtain ⟨b, c, rfl⟩ : ∃ (b : Fin 4096) (c : Fin 2048), i = ix2 b c := ⟨i 0, i 1, eq_ix2 i⟩
  unfold val_main_v39
  by_cases hc : c.val < 1024
  · rw [concatenate_pair_apply_left (t := S4096x2048) (s₁ := S4096x1024) (s₂ := S4096x1024) 1 _ _ _ (ix2 b c) rfl
      (ix2 b ⟨c.val, hc⟩) (fun a => match a with | ⟨0, _⟩ => rfl | ⟨1, _⟩ => rfl), hidden_apply]
    exact (outS_left _ _ b c hc).symm
  · rw [concatenate_pair_apply_right (t := S4096x2048) (s₁ := S4096x1024) (s₂ := S4096x1024) 1 _ _ _ (ix2 b c) rfl rfl
      (ix2 b ⟨c.val - 1024, by have := c.isLt; omega⟩)
      (fun a => match a with | ⟨0, _⟩ => fun _ => rfl | ⟨1, _⟩ => fun h => absurd rfl h)
      (by show c.val - 1024 + 1024 = c.val; omega), cell_apply]
    exact (outS_right _ _ b c hc).symm

end

end Cert.RefValue

end
-- ==== Proof.lean ====
/-
  The fused LSTM cell kernel against its reference.

  Both programs compute, for each of 4096 batch rows, the four gates' pre-activations as inner products of the
  input, the previous hidden state and the cross hidden state with the columns of three weight matrices, then the new
  cell state `σ(f) · c_prev + σ(i) · tanh(g)` and the new hidden state `σ(o) · tanh(c)`. The reference takes three
  matrix products and adds them; the kernel multiplies the three operands laid side by side by the three weight
  matrices stacked, 640 contraction indices at a time over four grid steps, accumulating from zero, and applies
  the gates at the fourth. On the extended reals the two are one function of the arguments: regrouping a finite sum
  needs only that addition is commutative and associative, which holds with the infinities too, narrowing to bf16
  is the identity, and the logistic function is `1 / (1 + exp (-x))` in either spelling. So the precondition is
  never opened.

  The three frames: the kernel's program, at either float instance, runs its ten host operations and its one
  pipelined region to the end and leaves the arguments as launched; the reference is a straight line of host
  operations. The idealization rewrote nothing.
-/
import proofs.«153491_j23012434772050_1_alg».proof.Defs
import proofs.«153491_j23012434772050_1_alg».proof.Proof.Gen.Kernel
import proofs.«153491_j23012434772050_1_alg».proof.Proof.Gen.KernelIdeal
import proofs.«153491_j23012434772050_1_alg».proof.Proof.Gen.ReferenceIdeal
import proofs.«153491_j23012434772050_1_alg».proof.Proof.Gen.ReferenceIdeal.Run
import proofs.«153491_j23012434772050_1_alg».proof.Proof.Gen.ReferenceIdeal.Read
import proofs.«153491_j23012434772050_1_alg».proof.Proof.Gen.Pre_finite_inputs
import proofs.«153491_j23012434772050_1_alg».proof.Proof.BitsFrame.Frame
import proofs.«153491_j23012434772050_1_alg».proof.Proof.IdealValue.Final
import proofs.«153491_j23012434772050_1_alg».proof.Proof.RefValue
import Idealize.ShloMosaic.Adequacy
import Idealize.ShloMosaic.Init

noncomputable section

namespace Cert.Proof

open Idealize.ShloMosaic Idealize.SL.Sem

/-- The word-level program runs to the end and keeps its arguments. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the arguments both programs end with the specification's hidden state and its hidden
    and cell states side by side, as functions of the same operands. -/
theorem algebraic : Cert.algebraic_KernelIdeal_ReferenceIdeal := by
  intro m ρ m' ρ' _ hagree
  refine ⟨_, _, Cert.KernelIdeal.Fr.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v38_eq, Cert.RefValue.ref_h, a0, a1, a2, a3, a4, a5, a6, a7, a8, a9, a10, a11, a12, a13, a14]
    rfl
  · obtain ⟨a0, a1, a2, a3, a4, a5, a6, a7, a8, a9, a10, a11, a12, a13, a14⟩ := hagree c
    rw [Cert.ReferenceIdeal.Read.val_main_v39_eq, Cert.RefValue.ref_s, a0, a1, a2, a3, a4, a5, a6, a7, a8, a9, a10, a11, a12, a13, a14]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
